-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x2048 : Shape := ⟨3, ![16, 128, 2048]⟩
abbrev S16x128x128 : Shape := ⟨3, ![16, 128, 128]⟩
abbrev S2000x128 : Shape := ⟨2, ![2000, 128]⟩
abbrev S512x128 : Shape := ⟨2, ![512, 128]⟩
abbrev S128x128 : Shape := ⟨2, ![128, 128]⟩
abbrev S128 : Shape := ⟨1, ![128]⟩
abbrev S_ : Shape := ⟨0, ![]⟩

class Facts : Prop where
  bcast_S_S16x128x2048 : S_.BroadcastsInDim S16x128x2048 (![] : Fin 0 → Fin S16x128x2048.rank)
  reducesTo_S16x128x2048_S_d0_1_2 : S16x128x2048.ReducesTo [0, 1, 2] S_
  h_S_ : 0 < S_.numel
  bcast_S_S2000x128 : S_.BroadcastsInDim S2000x128 (![] : Fin 0 → Fin S2000x128.rank)
  reducesTo_S2000x128_S_d0_1 : S2000x128.ReducesTo [0, 1] S_
  bcast_S_S512x128 : S_.BroadcastsInDim S512x128 (![] : Fin 0 → Fin S512x128.rank)
  reducesTo_S512x128_S_d0_1 : S512x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128x128 : S_.BroadcastsInDim S16x128x128 (![] : Fin 0 → Fin S16x128x128.rank)
  reducesTo_S16x128x128_S_d0_1_2 : S16x128x128.ReducesTo [0, 1, 2] S_

variable [Facts]

def fn_part3 {F : FTy → Type} [FloatOps F] (main_arg1 : IVec S16x128x128 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S16x128x128 32 := broadcastInDim S16x128x128 ![] bcast_S_S16x128x128 main_c_20
  let main_v55 : IVec S16x128x128 1 := cmpi .sge main_arg1 main_v54
  let main_c_21 : IVec S_ 1 := constantI S_ 1 1#1
  let main_v56 : IVec S_ 1 := (fun x v => Host.reduce IntOp.andi x v reducesTo_S16x128x128_S_d0_1_2 h_S_) main_v55 main_c_21
  let main_v57 : IVec S_ 1 := andi main_v53 main_v56
  let main_c_22 : IVec S_ 32 := constantI S_ 32 512#32
  let main_v58 : IVec S16x128x128 32 := broadcastInDim S16x128x128 ![] bcast_S_S16x128x128 main_c_22
  let main_v59 : IVec S16x128x128 1 := cmpi .slt main_arg1 main_v58
  let main_c_23 : IVec S_ 1 := constantI S_ 1 1#1
  let main_v60 : IVec S_ 1 := (fun x v => Host.reduce IntOp.andi x v reducesTo_S16x128x128_S_d0_1_2 h_S_) main_v59 main_c_23
  let main_v61 : IVec S_ 1 := andi main_v57 main_v60
  main_v61

def fn_part2 {F : FTy → Type} [FloatOps F] (main_arg1 : IVec S16x128x128 32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_v48 main_v49 main_v50

def fn_part1 {F : FTy → Type} [FloatOps F] (main_arg1 : IVec S16x128x128 32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S16x128x2048 .f32) (main_arg1 : IVec S16x128x128 32) (main_arg2 : FVec F S2000x128 .f32) (main_arg3 : FVec F S512x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S16x128x2048 .f32 := Host.absf main_arg0
  let main_cst : FVec F S_ .f32 := constant S_ .f32 0x7F800000#32
  let main_v1 : FVec F S16x128x2048 .f32 := broadcastInDim S16x128x2048 ![] bcast_S_S16x128x2048 main_cst
  let main_v2 : IVec S16x128x2048 1 := cmpf .olt main_v0 main_v1
  let main_c : IVec S_ 1 := constantI S_ 1 1#1
  let main_v3 : IVec S_ 1 := (fun x v => Host.reduce IntOp.andi x v reducesTo_S16x128x2048_S_d0_1_2 h_S_) main_v2 main_c
  let main_v4 : FVec F S2000x128 .f32 := Host.absf main_arg2
  let main_cst_0 : FVec F S_ .f32 := constant S_ .f32 0x7F800000#32
  let main_v5 : FVec F S2000x128 .f32 := broadcastInDim S2000x128 ![] bcast_S_S2000x128 main_cst_0
  let main_v6 : IVec S2000x128 1 := cmpf .olt main_v4 main_v5
  let main_c_1 : IVec S_ 1 := constantI S_ 1 1#1
  let main_v7 : IVec S_ 1 := (fun x v => Host.reduce IntOp.andi x v reducesTo_S2000x128_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_v13 main_v16
-- ==== Kernel.lean ====
abbrev S16x128x2048 : Shape := ⟨3, ![16, 128, 2048]⟩
abbrev S16x128x128 : Shape := ⟨3, ![16, 128, 128]⟩
abbrev S2000x128 : Shape := ⟨2, ![2000, 128]⟩
abbrev S512x128 : Shape := ⟨2, ![512, 128]⟩
abbrev S128x128 : Shape := ⟨2, ![128, 128]⟩
abbrev S128 : Shape := ⟨1, ![128]⟩
abbrev S_ : Shape := ⟨0, ![]⟩
abbrev S16x128x2176 : Shape := ⟨3, ![16, 128, 2176]⟩
abbrev S1x128x128 : Shape := ⟨3, ![1, 128, 128]⟩
abbrev S1x128x2048 : Shape := ⟨3, ![1, 128, 2048]⟩
abbrev S1x128x2176 : Shape := ⟨3, ![1, 128, 2176]⟩
abbrev S128x16x128 : Shape := ⟨3, ![128, 16, 128]⟩
abbrev S128x32x128 : Shape := ⟨3, ![128, 32, 128]⟩
abbrev S128x1x128 : Shape := ⟨3, ![128, 1, 128]⟩
abbrev S128x16x32 : Shape := ⟨3, ![128, 16, 32]⟩
abbrev S128x1x32 : Shape := ⟨3, ![128, 1, 32]⟩
abbrev S128x32 : Shape := ⟨2, ![128, 32]⟩
abbrev S32x128 : Shape := ⟨2, ![32, 128]⟩
abbrev S128x1 : Shape := ⟨2, ![128, 1]⟩
abbrev S1x128 : Shape := ⟨2, ![1, 128]⟩
abbrev S128x2048 : Shape := ⟨2, ![128, 2048]⟩

abbrev nBuf : Space → Nat
  | .hbm => 26
  | .vmem => 16
  | .smem => 0
  | _ => 0

abbrev bufTy : (tb : Table) → Fin (tcTables nBuf tb) → BufTy
  | .hbm, ⟨0, _⟩ => ⟨S16x128x2048, .f32⟩
  | .hbm, ⟨1, _⟩ => ⟨S16x128x128, .i32⟩
  | .hbm, ⟨2, _⟩ => ⟨S2000x128, .f32⟩
  | .hbm, ⟨3, _⟩ => ⟨S512x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S16x128x128, .i32⟩
  | .hbm, ⟨16, _⟩ => ⟨S16x128x128, .i32⟩
  | .hbm, ⟨17, _⟩ => ⟨S_, .i32⟩
  | .hbm, ⟨18, _⟩ => ⟨S16x128x128, .i32⟩
  | .hbm, ⟨19, _⟩ => ⟨S16x128x128, .i32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S16x128x2176, .f32⟩
  | .local _ .vmem, ⟨0, _⟩ => ⟨S1x128x128, .i32⟩
  | .local _ .vmem, ⟨1, _⟩ => ⟨S1x128x128, .i32⟩
  | .local _ .vmem, ⟨2, _⟩ => ⟨S512x128, .f32⟩
  | .local _ .vmem, ⟨3, _⟩ => ⟨S128x128, .f32⟩
  | .local _ .vmem, ⟨4, _⟩ => ⟨S1x128x2048, .f32⟩
  | .local _ .vmem, ⟨5, _⟩ => ⟨S1x128x2048, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S1x128x2176, .f32⟩
  | .local _ .vmem, ⟨15, _⟩ => ⟨S1x128x2176, .f32⟩
  | _, _ => ⟨S16x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x128x2176 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S16x128x128 : S_.BroadcastsInDim S16x128x128 (![] : Fin 0 → Fin S16x128x128.rank)
  slices_S2000x128_S128x128_0_0 : S2000x128.Slices ![0, 0] S128x128
  transposes_S128x128_S128x128_1_0 : S128x128.Transposes [1, 0] S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  transposes_S128x128_p1_0_S128x128 : S128x128.Transposes [1, 0] S128x128
  iota_S128x16x128_d1_w32 : S128x16x128.Iotas .tc 32 [1]
  iota_S128x32x128_d1_w32 : S128x32x128.Iotas .tc 32 [1]
  shapeCasts_S128x128_S128x1x128 : S128x128.ShapeCasts S128x1x128
  broadcasts_S128x1x128_S128x16x128 : S128x1x128.Broadcasts S128x16x128
  natLt_1_32 : 1 < 32
  bitsLt_bf16_f32 : FTy.bits .bf16 < FTy.bits .f32
  broadcasts_S128x1x128_S128x32x128 : S128x1x128.Broadcasts S128x32x128
  slices_S128x16x32_o0_0_0_S128x1x32 : S128x16x32.Slices ![0, 0, 0] S128x1x32
  shapeCasts_S128x1x32_S128x32 : S128x1x32.ShapeCasts S128x32
  inb_S512x128_S32x128_0_0 : ∀ a, (![0, 0] : Fin 2 → Nat) a + S32x128.size a ≤ S512x128.size a
  h_S32x128 : 0 < S32x128.numel
  slices_S128x16x32_o0_1_0_S128x1x32 : S128x16x32.Slices ![0, 1, 0] S128x1x32
  inb_S512x128_S32x128_32_0 : ∀ a, (![32, 0] : Fin 2 → Nat) a + S32x128.size a ≤ S512x128.size a
  slices_S128x16x32_o0_2_0_S128x1x32 : S128x16x32.Slices ![0, 2, 0] S128x1x32
  inb_S512x128_S32x128_64_0 : ∀ a, (![64, 0] : Fin 2 → Nat) a + S32x128.size a ≤ S512x128.size a
  slices_S128x16x32_o0_3_0_S128x1x32 : S128x16x32.Slices ![0, 3, 0] S128x1x32
  inb_S512x128_S32x128_96_0 : ∀ a, (![96, 0] : Fin 2 → Nat) a + S32x128.size a ≤ S512x128.size a
  slices_S128x16x32_o0_4_0_S128x1x32 : S128x16x32.Slices ![0, 4, 0] S128x1x32
  inb_S512x128_S32x128_128_0 : ∀ a, (![128, 0] : Fin 2 → Nat) a + S32x128.size a ≤ S512x128.size a
  slices_S128x16x32_o0_5_0_S128x1x32 : S128x16x32.Slices ![0, 5, 0] S128x1x32
  inb_S512x128_S32x128_160_0 : ∀ a, (![160, 0] : Fin 2 → Nat) a + S32x128.size a ≤ S512x128.size a
  slices_S128x16x32_o0_6_0_S128x1x32 : S128x16x32.Slices ![0, 6, 0] S128x1x32
  inb_S512x128_S32x128_192_0 : ∀ a, (![192, 0] : Fin 2 → Nat) a + S32x128.size a ≤ S512x128.size a
  slices_S128x16x32_o0_7_0_S128x1x32 : S128x16x32.Slices ![0, 7, 0] S128x1x32
  inb_S512x128_S32x128_224_0 : ∀ a, (![224, 0] : Fin 2 → Nat) a + S32x128.size a ≤ S512x128.size a
  slices_S128x16x32_o0_8_0_S128x1x32 : S128x16x32.Slices ![0, 8, 0] S128x1x32
  inb_S512x128_S32x128_256_0 : ∀ a, (![256, 0] : Fin 2 → Nat) a + S32x128.size a ≤ S512x128.size a
  slices_S128x16x32_o0_9_0_S128x1x32 : S128x16x32.Slices ![0, 9, 0] S128x1x32
  inb_S512x128_S32x128_288_0 : ∀ a, (![288, 0] : Fin 2 → Nat) a + S32x128.size a ≤ S512x128.size a
  slices_S128x16x32_o0_10_0_S128x1x32 : S128x16x32.Slices ![0, 10, 0] S128x1x32
  inb_S512x128_S32x128_320_0 : ∀ a, (![320, 0] : Fin 2 → Nat) a + S32x128.size a ≤ S512x128.size a
  slices_S128x16x32_o0_11_0_S128x1x32 : S128x16x32.Slices ![0, 11, 0] S128x1x32
  inb_S512x128_S32x128_352_0 : ∀ a, (![352, 0] : Fin 2 → Nat) a + S32x128.size a ≤ S512x128.size a
  slices_S128x16x32_o0_12_0_S128x1x32 : S128x16x32.Slices ![0, 12, 0] S128x1x32
  inb_S512x128_S32x128_384_0 : ∀ a, (![384, 0] : Fin 2 → Nat) a + S32x128.size a ≤ S512x128.size a
  slices_S128x16x32_o0_13_0_S128x1x32 : S128x16x32.Slices ![0, 13, 0] S128x1x32
  inb_S512x128_S32x128_416_0 : ∀ a, (![416, 0] : Fin 2 → Nat) a + S32x128.size a ≤ S512x128.size a
  slices_S128x16x32_o0_14_0_S128x1x32 : S128x16x32.Slices ![0, 14, 0] S128x1x32
  inb_S512x128_S32x128_448_0 : ∀ a, (![448, 0] : Fin 2 → Nat) a + S32x128.size a ≤ S512x128.size a
  slices_S128x16x32_o0_15_0_S128x1x32 : S128x16x32.Slices ![0, 15, 0] S128x1x32
  inb_S512x128_S32x128_480_0 : ∀ a, (![480, 0] : Fin 2 → Nat) a + S32x128.size a ≤ S512x128.size a
  reduces_S128x128_S128 : S128x128.Reduces [1] S128
  shapeCasts_S128_S128x1 : S128.ShapeCasts S128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  broadcasts_S128x1_S128x128 : S128x1.Broadcasts S128x128
  inb_S1x128x2176_S1x128x128_0_0_0 : ∀ a, (![0, 0, 0] : Fin 3 → Nat) a + S1x128x128.size a ≤ S1x128x2176.size a
  shapeCasts_S128x128_S1x128x128 : S128x128.ShapeCasts S1x128x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x128x2176_S1x128x2048_0_0_128 : ∀ a, (![0, 0, 128] : Fin 3 → Nat) a + S1x128x2048.size a ≤ S1x128x2176.size a
  shapeCasts_S128x2048_S1x128x2048 : S128x2048.ShapeCasts S1x128x2048
  dot_S128x16x128_S128x32x128_S128x16x32_2_2_1_1_0_0_wf : DotDims.WF S128x16x128 S128x32x128 S128x16x32 [2] [2] [1] [1] [0] [0]
  dot_S128x32_S32x128_S128x128_1_0_0_1_n_n_wf : DotDims.WF S128x32 S32x128 S128x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S16x128x128.size a
  hwx0_0 : ∀ i : grid0.Coords, EltTy.bits .i32 = 32 ∨ (Rect.block (s := S16x128x128) S1x128x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S16x128x2048.size a
  hwx0_3 : ∀ i : grid0.Coords, EltTy.bits .f32 = 32 ∨ (Rect.block (s := S16x128x2048) S1x128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128x2176.size a ≤ S16x128x2176.size a
  hwx0_12 : ∀ i : grid0.Coords, EltTy.bits .f32 = 32 ∨ (Rect.block (s := S16x128x2176) S1x128x2176.size (cc0_transform_12 i) (hinb0_12 i)).WholeWords (EltTy.packing .f32)

variable [Facts₀]

def dot_S128x16x128_S128x32x128_S128x16x32_2_2_1_1_0_0 : DotDims S128x16x128 S128x32x128 S128x16x32 where
  lhsContracting := [2]
  rhsContracting := [2]
  lhsNonContracting := [1]
  rhsNonContracting := [1]
  lhsBatch := [0]
  rhsBatch := [0]
  wf := dot_S128x16x128_S128x32x128_S128x16x32_2_2_1_1_0_0_wf
def dot_S128x32_S32x128_S128x128_1_0_0_1_n_n : DotDims S128x32 S32x128 S128x128 where
  lhsContracting := [1]
  rhsContracting := [0]
  lhsNonContracting := [0]
  rhsNonContracting := [1]
  lhsBatch := []
  rhsBatch := []
  wf := dot_S128x32_S32x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x128x2176.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16x128x2048 : Shape := ⟨3, ![16, 128, 2048]⟩
abbrev S16x128x128 : Shape := ⟨3, ![16, 128, 128]⟩
abbrev S2000x128 : Shape := ⟨2, ![2000, 128]⟩
abbrev S512x128 : Shape := ⟨2, ![512, 128]⟩
abbrev S128x128 : Shape := ⟨2, ![128, 128]⟩
abbrev S128 : Shape := ⟨1, ![128]⟩
abbrev S1x128x128 : Shape := ⟨3, ![1, 128, 128]⟩
abbrev S_ : Shape := ⟨0, ![]⟩
abbrev S16x128x128x1 : Shape := ⟨4, ![16, 128, 128, 1]⟩
abbrev S16x128x128x128 : Shape := ⟨4, ![16, 128, 128, 128]⟩
abbrev S16x128 : Shape := ⟨2, ![16, 128]⟩
abbrev S16x128x1 : Shape := ⟨3, ![16, 128, 1]⟩
abbrev S16x1x128x128 : Shape := ⟨4, ![16, 1, 128, 128]⟩
abbrev S1x1x1x128 : Shape := ⟨4, ![1, 1, 1, 128]⟩
abbrev S1x1x128 : Shape := ⟨3, ![1, 1, 128]⟩
abbrev S16x128x2176 : Shape := ⟨3, ![16, 128, 2176]⟩

abbrev nBuf : Space → Nat
  | .hbm => 77
  | .vmem => 0
  | .smem => 0
  | _ => 0

abbrev bufTy : (tb : Table) → Fin (tcTables nBuf tb) → BufTy
  | .hbm, ⟨0, _⟩ => ⟨S16x128x2048, .f32⟩
  | .hbm, ⟨1, _⟩ => ⟨S16x128x128, .i32⟩
  | .hbm, ⟨2, _⟩ => ⟨S2000x128, .f32⟩
  | .hbm, ⟨3, _⟩ => ⟨S512x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S1x128x128, .f32⟩
  | .hbm, ⟨14, _⟩ => ⟨S16x128x128, .f32⟩
  | .hbm, ⟨15, _⟩ => ⟨S_, .i32⟩
  | .hbm, ⟨16, _⟩ => ⟨S16x128x128, .i32⟩
  | .hbm, ⟨17, _⟩ => ⟨S16x128x128, .i1⟩
  | .hbm, ⟨18, _⟩ => ⟨S_, .i32⟩
  | .hbm, ⟨19, _⟩ => ⟨S16x128x128, .i32⟩
  | .hbm, ⟨20, _⟩ => ⟨S16x128x128, .i32⟩
  | .hbm, ⟨21, _⟩ => ⟨S16x128x128, .i32⟩
  | .hbm, ⟨22, _⟩ => ⟨S16x128x128x1, .i32⟩
  | .hbm, ⟨23, _⟩ => ⟨S16x128x128x128, .f32⟩
  | .hbm, ⟨24, _⟩ => ⟨S_, .i32⟩
  | .hbm, ⟨25, _⟩ => ⟨S16x128x128, .i32⟩
  | .hbm, ⟨26, _⟩ => ⟨S16x128x128, .i1⟩
  | .hbm, ⟨27, _⟩ => ⟨S16x128x128, .f32⟩
  | .hbm, ⟨28, _⟩ => ⟨S_, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .i1⟩
  | .hbm, ⟨33, _⟩ => ⟨S_, .f32⟩
  | .hbm, ⟨34, _⟩ => ⟨S_, .f32⟩
  | .hbm, ⟨35, _⟩ => ⟨S16x128, .f32⟩
  | .hbm, ⟨36, _⟩ => ⟨S16x128, .f32⟩
  | .hbm, ⟨37, _⟩ => ⟨S16x128x1, .f32⟩
  | .hbm, ⟨38, _⟩ => ⟨S16x1x128x128, .f32⟩
  | .hbm, ⟨39, _⟩ => ⟨S16x128x128x128, .f32⟩
  | .hbm, ⟨40, _⟩ => ⟨S16x128x128x128, .f32⟩
  | .hbm, ⟨41, _⟩ => ⟨S16x128x128x128, .f32⟩
  | .hbm, ⟨42, _⟩ => ⟨S1x1x1x128, .f32⟩
  | .hbm, ⟨43, _⟩ => ⟨S16x128x128x128, .f32⟩
  | .hbm, ⟨44, _⟩ => ⟨S16x128x128x128, .f32⟩
  | .hbm, ⟨45, _⟩ => ⟨S_, .f32⟩
  | .hbm, ⟨46, _⟩ => ⟨S16x128x128, .f32⟩
  | .hbm, ⟨47, _⟩ => ⟨S16x128x128, .f32⟩
  | .hbm, ⟨48, _⟩ => ⟨S16x128x128, .f32⟩
  | .hbm, ⟨49, _⟩ => ⟨S1x1x128, .f32⟩
  | .hbm, ⟨50, _⟩ => ⟨S16x128x128, .f32⟩
  | .hbm, ⟨51, _⟩ => ⟨S16x128x128, .f32⟩
  | .hbm, ⟨52, _⟩ => ⟨S16x128x128, .f32⟩
  | .hbm, ⟨53, _⟩ => ⟨S16x128x128, .f32⟩
  | .hbm, ⟨54, _⟩ => ⟨S16x128x128, .f32⟩
  | .hbm, ⟨55, _⟩ => ⟨S16x128x128, .f32⟩
  | .hbm, ⟨56, _⟩ => ⟨S16x128x128, .f32⟩
  | .hbm, ⟨57, _⟩ => ⟨S16x1x128x128, .f32⟩
  | .hbm, ⟨58, _⟩ => ⟨S16x128x128x128, .f32⟩
  | .hbm, ⟨59, _⟩ => ⟨S16x128x128x128, .f32⟩
  | .hbm, ⟨60, _⟩ => ⟨S16x128x128x128, .f32⟩
  | .hbm, ⟨61, _⟩ => ⟨S1x1x1x128, .f32⟩
  | .hbm, ⟨62, _⟩ => ⟨S16x128x128x128, .f32⟩
  | .hbm, ⟨63, _⟩ => ⟨S16x128x128x128, .f32⟩
  | .hbm, ⟨64, _⟩ => ⟨S_, .f32⟩
  | .hbm, ⟨65, _⟩ => ⟨S16x128x128, .f32⟩
  | .hbm, ⟨66, _⟩ => ⟨S16x128x128, .f32⟩
  | .hbm, ⟨67, _⟩ => ⟨S16x128x128, .f32⟩
  | .hbm, ⟨68, _⟩ => ⟨S1x1x128, .f32⟩
  | .hbm, ⟨69, _⟩ => ⟨S16x128x128, .f32⟩
  | .hbm, ⟨70, _⟩ => ⟨S16x128x128, .f32⟩
  | .hbm, ⟨71, _⟩ => ⟨S16x128x128, .f32⟩
  | .hbm, ⟨72, _⟩ => ⟨S16x128x128, .f32⟩
  | .hbm, ⟨73, _⟩ => ⟨S16x128x128, .f32⟩
  | .hbm, ⟨74, _⟩ => ⟨S16x128x128, .f32⟩
  | .hbm, ⟨75, _⟩ => ⟨S16x128x128, .f32⟩
  | .hbm, ⟨76, _⟩ => ⟨S16x128x2176, .f32⟩
  | _, _ => ⟨S16x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2000x128_S128x128_0_0 : S2000x128.Slices ![0, 0] S128x128
  bcast_S128x128_S1x128x128_1_2 : S128x128.BroadcastsInDim S1x128x128 (![1, 2] : Fin 2 → Fin S1x128x128.rank)
  bcast_S1x128x128_S16x128x128_0_1_2 : S1x128x128.BroadcastsInDim S16x128x128 (![0, 1, 2] : Fin 3 → Fin S16x128x128.rank)
  bcast_S_S16x128x128 : S_.BroadcastsInDim S16x128x128 (![] : Fin 0 → Fin S16x128x128.rank)
  bcast_S16x128x128_S16x128x128x1_0_1_2 : S16x128x128.BroadcastsInDim S16x128x128x1 (![0, 1, 2] : Fin 3 → Fin S16x128x128x1.rank)
  reducesTo_S16x128x128_S16x128_d2 : S16x128x128.ReducesTo [2] S16x128
  h_S_ : 0 < S_.numel
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  bcast_S16x128x128_S16x1x128x128_0_2_3 : S16x128x128.BroadcastsInDim S16x1x128x128 (![0, 2, 3] : Fin 3 → Fin S16x1x128x128.rank)
  bcast_S16x1x128x128_S16x128x128x128_0_1_2_3 : S16x1x128x128.BroadcastsInDim S16x128x128x128 (![0, 1, 2, 3] : Fin 4 → Fin S16x128x128x128.rank)
  bcast_S128_S1x1x1x128_3 : S128.BroadcastsInDim S1x1x1x128 (![3] : Fin 1 → Fin S1x1x1x128.rank)
  bcast_S1x1x1x128_S16x128x128x128_0_1_2_3 : S1x1x1x128.BroadcastsInDim S16x128x128x128 (![0, 1, 2, 3] : Fin 4 → Fin S16x128x128x128.rank)
  reducesTo_S16x128x128x128_S16x128x128_d1 : S16x128x128x128.ReducesTo [1] S16x128x128
  bcast_S128_S1x1x128_2 : S128.BroadcastsInDim S1x1x128 (![2] : Fin 1 → Fin S1x1x128.rank)
  bcast_S1x1x128_S16x128x128_0_1_2 : S1x1x128.BroadcastsInDim S16x128x128 (![0, 1, 2] : Fin 3 → Fin S16x128x128.rank)
  bcast_S16x128x1_S16x128x128_0_1_2 : S16x128x1.BroadcastsInDim S16x128x128 (![0, 1, 2] : Fin 3 → Fin S16x128x128.rank)
  concatenates_S16x128x128_S16x128x2048_S16x128x2176_d2 : Shape.Concatenates [S16x128x128, S16x128x2048] S16x128x2176 2
  gather_S512x128_S16x128x128x1_S16x128x128x128_3_0_n_n_0_3_1128_wf : GatherDims.WF S512x128 S16x128x128x1 S16x128x128x128 [3] [0] [] [0] [] 3 ![1, 128]
  dot_S16x128x128x128_S128x128_S16x128x128x128_3_1_012_0_n_n_wf : DotDims.WF S16x128x128x128 S128x128 S16x128x128x128 [3] [1] [0, 1, 2] [0] [] []
  dot_S16x128x128_S16x128x128_S16x128x128_2_1_1_2_0_0_wf : DotDims.WF S16x128x128 S16x128x128 S16x128x128 [2] [1] [1] [2] [0] [0]
  dot_S16x128x128_S128x128_S16x128x128_2_1_01_0_n_n_wf : DotDims.WF S16x128x128 S128x128 S16x128x128 [2] [1] [0, 1] [0] [] []

variable [Facts₀]

def gather_S512x128_S16x128x128x1_S16x128x128x128_3_0_n_n_0_3_1128 : GatherDims S512x128 S16x128x128x1 S16x128x128x128 where
  offsetDims := [3]
  collapsedSliceDims := [0]
  operandBatchingDims := []
  startIndicesBatchingDims := []
  startIndexMap := [0]
  indexVectorDim := 3
  sliceSizes := ![1, 128]
  wf := gather_S512x128_S16x128x128x1_S16x128x128x128_3_0_n_n_0_3_1128_wf
def dot_S16x128x128x128_S128x128_S16x128x128x128_3_1_012_0_n_n : DotDims S16x128x128x128 S128x128 S16x128x128x128 where
  lhsContracting := [3]
  rhsContracting := [1]
  lhsNonContracting := [0, 1, 2]
  rhsNonContracting := [0]
  lhsBatch := []
  rhsBatch := []
  wf := dot_S16x128x128x128_S128x128_S16x128x128x128_3_1_012_0_n_n_wf
def dot_S16x128x128_S16x128x128_S16x128x128_2_1_1_2_0_0 : DotDims S16x128x128 S16x128x128 S16x128x128 where
  lhsContracting := [2]
  rhsContracting := [1]
  lhsNonContracting := [1]
  rhsNonContracting := [2]
  lhsBatch := [0]
  rhsBatch := [0]
  wf := dot_S16x128x128_S16x128x128_S16x128x128_2_1_1_2_0_0_wf
def dot_S16x128x128_S128x128_S16x128x128_2_1_01_0_n_n : DotDims S16x128x128 S128x128 S16x128x128 where
  lhsContracting := [2]
  rhsContracting := [1]
  lhsNonContracting := [0, 1]
  rhsNonContracting := [0]
  lhsBatch := []
  rhsBatch := []
  wf := dot_S16x128x128_S128x128_S16x128x128_2_1_01_0_n_n_wf

class Facts : Prop extends Facts₀ where

variable [Facts]
-- ==== Proof.Spec.lean ====
/-
  The mathematics both programs compute, over plain index types, on the extended reals.

  One batch member has a 128 × 128 matrix of relation words. Word (i, j) names row `rr i j` of a 512-row table `T`,
  and marks pair (i, j) adjacent (`aa i j = 1`) when it is positive. A layer maps a 128 × 128 state `x` to
  `tanh (x Waᵀ + ba + (messages summed over neighbours) / degree + x)`, where the message from object j along
  pair (i, j) is `Wb (x j ⊙ T (rr i j)) + bb`, every pair (i, j) of column j counted once for each neighbour j of k.

  The two arrangements of one layer:
  * `layerR` sums the messages pair by pair: `∑ j, aa k j * ∑ i, (∑ d, (x j d * T (rr i j) d) * Wb e d + bb e)`;
  * `layerK` first sums the table rows of column j (`relsum`), multiplies once, and accounts for the 128 copies of the
    bias separately: `∑ j, aa k j * ∑ d, (x j d * relsum j d) * Wb e d` and `(deg / degc) * 128 * bb e`.
  They agree on finite data (distributivity), which is Algebra.lean's theorem.
-/
import Idealize.ShloMosaic.PureOps.Ideal
import Idealize.ShloMosaic.PureOps.Ideal.Laws

noncomputable section

open Idealize.ShloMosaic

namespace Cert.Gcn

/-- A 128 × 128 matrix of extended reals. -/
abbrev Mat := Fin 128 → Fin 128 → EReal
/-- A length-128 vector of extended reals. -/
abbrev Row := Fin 128 → EReal

/-- The table row a word below 512 names: itself. -/
def rowOf (w : BitVec 32) : Fin 512 := ⟨w.toNat % 512, Nat.mod_lt _ (by decide)⟩

/-- Adjacency of a pair: 1 where its signed relation word is positive, else 0. -/
def adjOf (w : BitVec 32) : EReal := if 0 < w.toInt then 1 else 0

/-- The table row a gather by NumPy-style indexing reads for a relation word: a negative word is first raised by 512,
    then the signed start index is clamped into the table's 512 rows. -/
def rowR (w : BitVec 32) : Fin 512 :=
  ⟨min ((if w.toInt < 0 then w + 512#32 else w).toInt.toNat) 511, by omega⟩

/-- The sum over i of the table rows named by column j of the relation matrix, at feature d. -/
def relsum (T : Fin 512 → Fin 128 → EReal) (rr : Fin 128 → Fin 128 → Fin 512) (j d : Fin 128) : EReal :=
  ∑ i, T (rr i j) d

/-- The degree of object k: its number of neighbours, as a sum of adjacencies. -/
def deg (aa : Mat) (k : Fin 128) : EReal := ∑ j, aa k j

/-- The degree, with 0 replaced by 1 (the divisor of the mean over neighbours). -/
def degc (aa : Mat) (k : Fin 128) : EReal := if deg aa k = 0 then 1 else deg aa k

/-- One layer, table rows summed first and the bias counted apart. -/
def layerK (T : Fin 512 → Fin 128 → EReal) (rr : Fin 128 → Fin 128 → Fin 512) (aa x Wa : Mat) (ba : Row) (Wb : Mat)
    (bb : Row) : Mat := fun k e =>
  Ideal.tanh (((((∑ d, x k d * Wa e d) + ba e)
      + Ideal.div (∑ j, aa k j * (∑ d, (x j d * relsum T rr j d) * Wb e d)) (degc aa k))
      + (Ideal.div (deg aa k) (degc aa k) * 128) * bb e)
      + x k e)

/-- One layer, messages summed pair by pair. -/
def layerR (T : Fin 512 → Fin 128 → EReal) (rr : Fin 128 → Fin 128 → Fin 512) (aa x Wa : Mat) (ba : Row) (Wb : Mat)
    (bb : Row) : Mat := fun k e =>
  Ideal.tanh ((((∑ d, x k d * Wa e d) + ba e)
      + Ideal.div (∑ j, aa k j * (∑ i, ((∑ d, (x j d * T (rr i j) d) * Wb e d) + bb e))) (degc aa k))
      + x k e)

/-- Two layers, the first with (W0, b0, W1, b1), the second with (W2, b2, W3, b3): the first arrangement. -/
def twoK (T : Fin 512 → Fin 128 → EReal) (rr : Fin 128 → Fin 128 → Fin 512) (aa x0 W0 : Mat) (b0 : Row) (W1 : Mat) (b1 : Row)
    (W2 : Mat) (b2 : Row) (W3 : Mat) (b3 : Row) : Mat :=
  layerK T rr aa (layerK T rr aa x0 W0 b0 W1 b1) W2 b2 W3 b3

/-- Two layers: the second arrangement. -/
def twoR (T : Fin 512 → Fin 128 → EReal) (rr : Fin 128 → Fin 128 → Fin 512) (aa x0 W0 : Mat) (b0 : Row) (W1 : Mat) (b1 : Row)
    (W2 : Mat) (b2 : Row) (W3 : Mat) (b3 : Row) : Mat :=
  layerR T rr aa (layerR T rr aa x0 W0 b0 W1 b1) W2 b2 W3 b3

/-- The result array of batch member b, row k: the two-layer state in columns 0 … 127, the object's features after. -/
def result (two : Fin 16 → Mat) (feats : Fin 16 → Fin 128 → Fin 2048 → EReal) (b : Fin 16) (k : Fin 128) (e : Fin 2176) : EReal :=
  if h : e.val < 128 then two b k ⟨e.val, h⟩ else feats b k ⟨e.val - 128, by have := e.isLt; omega⟩

end Cert.Gcn

end
-- ==== Proof.KDefs.lean ====
/-
  The kernel body's two composite values, named: the sum of table rows it forms from the relation block and the
  table's sixteen 32-row slices, and the state its two layers end with.
-/
import proofs.«406823_j32375463477528_3_alg».proof.Proof.Gen.KernelIdeal.Skeleton
import Idealize.ShloMosaic.PureOps.Ideal

noncomputable section

namespace Cert.Gcn

open Cert.KernelIdeal Cert.KernelIdeal.Gen Idealize.ShloMosaic

/-- The kernel's sum of table rows as its body computes it from the relation block and the sixteen 32-row slices of
    the table. -/
def relsumK (x0 : Vec Ideal S1x128x128 .i32) (s : Fin 16 → Vec Ideal S32x128 .f32) : FVec Ideal S128x128 .f32 :=
  k0_pay9 (k0_pay4 x0) (k0_pay7 (k0_pay4 x0) (k0_pay5 x0 (s 0) (s 1) (s 2)) (k0_pay6 x0) (s 3) (s 4) (s 5) (s 6) (s 7) (s 8) (s 9) (s 10)) (k0_pay8 (k0_pay4 x0)) (s 11) (s 12) (s 13) (s 14) (s 15)

/-- The kernel's state after its two layers, from the relation block x0, the summed table rows rs, the initial state x2
    and the loaded parameter blocks. -/
def stateK (x0 : Vec Ideal S1x128x128 .i32) (rs : FVec Ideal S128x128 .f32) (x2 x4 : Vec Ideal S128x128 .f32) (x5 : Vec Ideal S128 .f32) (x6 : Vec Ideal S128x128 .f32) (x7 : Vec Ideal S128 .f32) (x8 : Vec Ideal S128x128 .f32) (x9 : Vec Ideal S128 .f32) (x10 : Vec Ideal S128x128 .f32) (x11 : Vec Ideal S128 .f32) : FVec Ideal S1x128x128 .f32 :=
  k0_pay1 (k0_pay12 (F := Ideal) (k0_pay3 x0)) (k0_pay13 (F := Ideal) (k0_pay3 x0))
    (k0_pay17 (k0_pay12 (F := Ideal) (k0_pay3 x0)) (k0_pay13 (F := Ideal) (k0_pay3 x0)) (k0_pay14 (F := Ideal) (k0_pay3 x0)) (k0_pay15 x2) (mulf (k0_pay15 x2) rs) x6 x4 x5 x7)
    (k0_pay18 rs (k0_pay12 (F := Ideal) (k0_pay3 x0)) (k0_pay13 (F := Ideal) (k0_pay3 x0)) (k0_pay14 (F := Ideal) (k0_pay3 x0)) (k0_pay15 x2) (mulf (k0_pay15 x2) rs) x6 x4 x5 x7 x10)
    (k0_pay19 (k0_pay12 (F := Ideal) (k0_pay3 x0)) (k0_pay13 (F := Ideal) (k0_pay3 x0)) (k0_pay14 (F := Ideal) (k0_pay3 x0)) (k0_pay15 x2) (mulf (k0_pay15 x2) rs) x6 x4 x5 x7 x8)
    x9 x11

end Cert.Gcn

end
-- ==== Proof.KHost.lean ====
/-
  The arrays the kernel region finds: what the host operations in front of it leave.

  Before the region the host clamps every relation word into [0, 511] (a signed maximum with 0, then a signed minimum
  with 511), keeps rows 0 … 127 of the name table, and transposes the four weight matrices. Read at an index: the
  clamped word; the name table's entry on the same row; the weight's entry with its two coordinates exchanged.
  A clamped word is below 512 as a natural number, and a word already in [0, 512) is its own clamp.
-/
import proofs.«406823_j32375463477528_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.Gcn

open Cert.KernelIdeal Cert.KernelIdeal.Gen Idealize.ShloMosaic Idealize.ShloMosaic.TcCoe Idealize.SL.Sem
open Idealize.ShloMosaic.ValueIdx Idealize.ShloMosaic.StableHlo

/-- A signed word clamped into [0, 511]. -/
def clipW (w : BitVec 32) : BitVec 32 := IntOp.minsi 511#32 (IntOp.maxsi 0#32 w)

/-- A clamped word is below 512. -/
theorem clipW_lt (w : BitVec 32) : (clipW w).toNat < 512 := by
  unfold clipW IntOp.minsi IntOp.maxsi
  by_cases h1 : w.slt 0#32 = true
  · rw [if_pos h1]
    have e : (511#32 : BitVec 32).slt 0#32 = false := by decide
    rw [e]
    decide
  · rw [if_neg h1]
    by_cases h2 : (511#32 : BitVec 32).slt w = true
    · rw [if_pos h2]
      decide
    · rw [if_neg h2]
      have h1' : ¬ w.toInt < 0 := by
        intro h; exact h1 (by simp only [BitVec.slt]; exact decide_eq_true (by simpa using h))
      have h2' : ¬ (511 : Int) < w.toInt := by
        intro h; exact h2 (by simp only [BitVec.slt]; exact decide_eq_true (by simpa using h))
      have h3 := BitVec.toInt_eq_toNat_cond w
      split at h3 <;> omega

/-- A word in [0, 512) is its own clamp. -/
theorem clipW_of_range (w : BitVec 32) (h0 : 0 ≤ w.toInt) (h1 : w.toInt < 512) : clipW w = w := by
  unfold clipW IntOp.minsi IntOp.maxsi
  have e1 : ¬ (w.slt 0#32 = true) := by
    simp only [BitVec.slt, decide_eq_true_eq]
    have : (0#32 : BitVec 32).toInt = 0 := by decide
    omega
  rw [if_neg e1]
  have e2 : ¬ ((511#32 : BitVec 32).slt w = true) := by
    simp only [BitVec.slt, decide_eq_true_eq]
    have : (511#32 : BitVec 32).toInt = 511 := by decide
    omega
  rw [if_neg e2]

variable (m : (ℓ : Loc nD τ sig) → Buf (Elt Ideal) ℓ)

/-- The relation words as the region finds them: each clamped. -/
theorem V_rels (c : Dev nD) :
    (V m c main_v0 : S16x128x128.Idx → BitVec 32) = fun i => clipW (m ((c : Thread nD τ).loc main_arg1) i) := by
  dsimp only [Gen.V]
  simp only [Gen.hostOps0, Gen.hostOps0_1, Gen.hostOps0_2, List.flatten_cons, List.flatten_nil, List.append_nil,
    List.cons_append, List.nil_append]
  after_results
  rfl

/-- The initial state as the region finds it: rows 0 … 127 of the name table. -/
theorem V_name (c : Dev nD) :
    (V m c main_v1 : S128x128.Idx → EReal)
      = extractStridedSlice S128x128 ![0, 0] (m ((c : Thread nD τ).loc main_arg2)) slices_S2000x128_S128x128_0_0 := by
  dsimp only [Gen.V]
  simp only [Gen.hostOps0, Gen.hostOps0_1, Gen.hostOps0_2, List.flatten_cons, List.flatten_nil, List.append_nil,
    List.cons_append, List.nil_append]
  after_results

/-- The first weight, transposed. -/
theorem V_w0 (c : Dev nD) :
    (V m c main_v2 : S128x128.Idx → EReal)
      = transpose S128x128 [1, 0] (m ((c : Thread nD τ).loc main_arg4)) transposes_S128x128_S128x128_1_0 := by
  dsimp only [Gen.V]
  simp only [Gen.hostOps0, Gen.hostOps0_1, Gen.hostOps0_2, List.flatten_cons, List.flatten_nil, List.append_nil,
    List.cons_append, List.nil_append]
  after_results

/-- The second weight, transposed. -/
theorem V_w1 (c : Dev nD) :
    (V m c main_v3 : S128x128.Idx → EReal)
      = transpose S128x128 [1, 0] (m ((c : Thread nD τ).loc main_arg6)) transposes_S128x128_S128x128_1_0 := by
  dsimp only [Gen.V]
  simp only [Gen.hostOps0, Gen.hostOps0_1, Gen.hostOps0_2, List.flatten_cons, List.flatten_nil, List.append_nil,
    List.cons_append, List.nil_append]
  after_results

/-- The third weight, transposed. -/
theorem V_w2 (c : Dev nD) :
    (V m c main_v4 : S128x128.Idx → EReal)
      = transpose S128x128 [1, 0] (m ((c : Thread nD τ).loc main_arg8)) transposes_S128x128_S128x128_1_0 := by
  dsimp only [Gen.V]
  simp only [Gen.hostOps0, Gen.hostOps0_1, Gen.hostOps0_2, List.flatten_cons, List.flatten_nil, List.append_nil,
    List.cons_append, List.nil_append]
  after_results

/-- The fourth weight, transposed. -/
theorem V_w3 (c : Dev nD) :
    (V m c main_v5 : S128x128.Idx → EReal)
      = transpose S128x128 [1, 0] (m ((c : Thread nD τ).loc main_arg10)) transposes_S128x128_S128x128_1_0 := by
  dsimp only [Gen.V]
  simp only [Gen.hostOps0, Gen.hostOps0_1, Gen.hostOps0_2, List.flatten_cons, List.flatten_nil, List.append_nil,
    List.cons_append, List.nil_append]
  after_results

/-- Rows 0 … 127 of the name table, read at (j, d): the table at (j, d). -/
theorem name_apply (x : S2000x128.Idx → EReal) (j d : Fin 128) :
    extractStridedSlice S128x128 ![0, 0] x slices_S2000x128_S128x128_0_0 (ix2 j d)
      = x (ix2 (⟨j.val, by have := j.isLt; omega⟩ : Fin 2000) d) :=
  extractStridedSlice_apply _ x _ _ _ fun a => by
    match a with
    | ⟨0, _⟩ => show j.val = 0 + j.val; omega
    | ⟨1, _⟩ => show d.val = 0 + d.val; omega

/-- A transposed 128 × 128 matrix read at (d, e): the matrix at (e, d). -/
theorem transpose_apply2 (x : S128x128.Idx → EReal) (d e : Fin 128) :
    transpose S128x128 [1, 0] x transposes_S128x128_S128x128_1_0 (ix2 d e) = x (ix2 e d) :=
  transpose_apply _ x _ _ _ fun b => by
    match b with
    | ⟨0, _⟩ => rfl
    | ⟨1, _⟩ => rfl

end Cert.Gcn

end
-- ==== Proof.KBlock.lean ====
/-
  What one grid point leaves in the output block, as one function of the blocks it loads.

  The body stores twice into the [1, 128, 2176] block: the two-layer state into columns 0 … 127, and the loaded feature
  block, unchanged, into columns 128 … 2175. The two rectangles tile the block, so its contents after the body are:
  in column e < 128 of row k the state at (k, e), in a later column the feature block at (k, e − 128). The state's table
  operand is read through sixteen 32-row slices of the loaded table; slice h holds rows 32 h … 32 h + 31.
-/
import proofs.«406823_j32375463477528_3_alg».proof.Proof.Gen.KernelIdeal.Frame
import proofs.«406823_j32375463477528_3_alg».proof.Proof.KDefs
import Idealize.ShloMosaic.Lib.Pipeline.Value
import Idealize.ShloMosaic.Lib.ValueIdx

set_option maxRecDepth 16384

noncomputable section

namespace Cert.Gcn

open Cert.KernelIdeal Cert.KernelIdeal.Gen Idealize.ShloMosaic Idealize.ShloMosaic.TcCoe Idealize.ShloMosaic.Tactic
open Idealize.SL Idealize.SL.Sem Idealize.ShloMosaic.ValueIdx

/-- The sixteen 32-row slices of the loaded table. -/
def tslices (x1 : Vec Ideal S512x128 .f32) : Fin 16 → Vec Ideal S32x128 .f32 :=
  ![View.ld x1 (Rect.unit ![0, 0] ![32, 128] inb_S512x128_S32x128_0_0),
    View.ld x1 (Rect.unit ![32, 0] ![32, 128] inb_S512x128_S32x128_32_0),
    View.ld x1 (Rect.unit ![64, 0] ![32, 128] inb_S512x128_S32x128_64_0),
    View.ld x1 (Rect.unit ![96, 0] ![32, 128] inb_S512x128_S32x128_96_0),
    View.ld x1 (Rect.unit ![128, 0] ![32, 128] inb_S512x128_S32x128_128_0),
    View.ld x1 (Rect.unit ![160, 0] ![32, 128] inb_S512x128_S32x128_160_0),
    View.ld x1 (Rect.unit ![192, 0] ![32, 128] inb_S512x128_S32x128_192_0),
    View.ld x1 (Rect.unit ![224, 0] ![32, 128] inb_S512x128_S32x128_224_0),
    View.ld x1 (Rect.unit ![256, 0] ![32, 128] inb_S512x128_S32x128_256_0),
    View.ld x1 (Rect.unit ![288, 0] ![32, 128] inb_S512x128_S32x128_288_0),
    View.ld x1 (Rect.unit ![320, 0] ![32, 128] inb_S512x128_S32x128_320_0),
    View.ld x1 (Rect.unit ![352, 0] ![32, 128] inb_S512x128_S32x128_352_0),
    View.ld x1 (Rect.unit ![384, 0] ![32, 128] inb_S512x128_S32x128_384_0),
    View.ld x1 (Rect.unit ![416, 0] ![32, 128] inb_S512x128_S32x128_416_0),
    View.ld x1 (Rect.unit ![448, 0] ![32, 128] inb_S512x128_S32x128_448_0),
    View.ld x1 (Rect.unit ![480, 0] ![32, 128] inb_S512x128_S32x128_480_0)]

/-- Slice h at (l, d) is the table at (32 h + l, d). -/
theorem tslices_apply (x1 : Vec Ideal S512x128 .f32) (h : Fin 16) (l : Fin 32) (d : Fin 128) :
    tslices x1 h (ix2 l d) = x1 (ix2 (⟨32 * h.val + l.val, by have := h.isLt; have := l.isLt; omega⟩ : Fin 512) d) := by
  fin_cases h <;>
  · show x1 _ = x1 _
    congr 1
    funext a
    apply Fin.ext
    match a with
    | ⟨0, _⟩ => show _ + 1 * l.val = _; simp
    | ⟨1, _⟩ => show 0 + 1 * d.val = d.val; omega

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The feature block goes through unchanged: dropping and restoring its unit axis is the identity. -/
theorem pay2_apply (x3 : Vec Ideal S1x128x2048 .f32) (x : S1x128x2048.Idx) : k0_pay2 x3 x = x3 x := by
  unfold k0_pay2
  obtain ⟨a, k, f, rfl⟩ : ∃ (a : Fin 1) (k : Fin 128) (f : Fin 2048), x = ix3 a k f := ⟨x 0, x 1, x 2, eq_ix3 x⟩
  refine (shapeCast_apply _ _ (ix3 a k f) (ix2 k f) ?_).trans ?_
  · rw [Shape.rowMajor_val_two, Shape.rowMajor_val_three]
    have : a.val = 0 := by omega
    show k.val * 2048 + f.val = (a.val * 128 + k.val) * 2048 + f.val
    omega
  · refine shapeCast_apply _ _ (ix2 k f) (ix3 a k f) ?_
    rw [Shape.rowMajor_val_two, Shape.rowMajor_val_three]
    have : a.val = 0 := by omega
    show (a.val * 128 + k.val) * 2048 + f.val = k.val * 2048 + f.val
    omega

/-- The block one point leaves, as a function of its loaded blocks. -/
def blockK (x0 : Vec Ideal S1x128x128 .i32) (x1 : Vec Ideal S512x128 .f32) (x2 : Vec Ideal S128x128 .f32) (x3 : Vec Ideal S1x128x2048 .f32) (x4 : Vec Ideal S128x128 .f32) (x5 : Vec Ideal S128 .f32) (x6 : Vec Ideal S128x128 .f32) (x7 : Vec Ideal S128 .f32) (x8 : Vec Ideal S128x128 .f32) (x9 : Vec Ideal S128 .f32) (x10 : Vec Ideal S128x128 .f32) (x11 : Vec Ideal S128 .f32) : Vec Ideal S1x128x2176 .f32 :=
  fun y => if h : (y 2).val < 128 then stateK x0 (relsumK x0 (tslices x1)) x2 x4 x5 x6 x7 x8 x9 x10 x11 (ix3 (0 : Fin 1) (y 1) ⟨(y 2).val, h⟩)
    else x3 (ix3 (0 : Fin 1) (y 1) (⟨(y 2).val - 128, by have h2 : (y 2).val < 2176 := (y 2).isLt; omega⟩ : Fin 2048))

theorem out_block (c : Dev nD) (i : grid0.Coords) (arg1 : Memref sig .tc .vmem S1x128x128 .i32) (harg1 : arg1.IsWhole) (arg2 : Memref sig .tc .vmem S512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128x2176 .f32) (harg13 : arg13.IsWhole) (x0 : Vec Ideal S1x128x128 .i32) (x1 : Vec Ideal S512x128 .f32) (x2 : Vec Ideal S128x128 .f32) (x3 : Vec Ideal S1x128x2048 .f32) (x4 : Vec Ideal S128x128 .f32) (x5 : Vec Ideal S128 .f32) (x6 : Vec Ideal S128x128 .f32) (x7 : Vec Ideal S128 .f32) (x8 : Vec Ideal S128x128 .f32) (x9 : Vec Ideal S128 .f32) (x10 : Vec Ideal S128x128 .f32) (x11 : Vec Ideal S128 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 = blockK x0 x1 x2 x3 x4 x5 x6 x7 x8 x9 x10 x11 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11)]
  unfold kernelRun0_A
  dsimp only
  sl_unfold_words
  simp only [View.readAt_eq_ld, Memref.IsWhole.read_unread]
  simp only [View.ld_unit_zero (S := S1x128x128) hz3, View.ld_unit_zero (S := S1x128x2048) hz3, View.ld_unit_zero (S := S128x128) hz2, View.ld_unit_zero (S := S128) hz1]
  funext y
  refine View.canon_apply_of_pieces (blockK x0 x1 x2 x3 x4 x5 x6 x7 x8 x9 x10 x11) _ ?_ y ?_
  · intro p hp
    simp only [List.mem_cons, List.mem_singleton, List.not_mem_nil, or_false] at hp
    rcases hp with rfl | rfl
    · -- the feature store: columns 128 … 2175
      intro x
      show k0_pay2 x3 x = blockK x0 x1 x2 x3 x4 x5 x6 x7 x8 x9 x10 x11 ((Rect.unit (s := S1x128x2176) ![0, 0, 128] ![1, 128, 2048] inb_S1x128x2176_S1x128x2048_0_0_128).emb x)
      have hx : ¬ (((Rect.unit (s := S1x128x2176) ![0, 0, 128] ![1, 128, 2048] inb_S1x128x2176_S1x128x2048_0_0_128).emb x) 2).val < 128 := by
        show ¬ (128 + 1 * (x 2).val < 128); omega
      unfold blockK
      rw [dif_neg hx, pay2_apply]
      refine congrArg x3 (funext fun a => Fin.ext ?_)
      match a with
      | ⟨0, _⟩ => have h0 : (x 0).val < 1 := (x 0).isLt; show (x 0).val = 0; omega
      | ⟨1, _⟩ => show (x 1).val = 0 + 1 * (x 1).val; omega
      | ⟨2, _⟩ => show (x 2).val = 128 + 1 * (x 2).val - 128; omega
    · -- the state store: columns 0 … 127
      intro x
      dsimp only
      have h2 : (x 2).val < 128 := (x 2).isLt
      have hx : (((Rect.unit (s := S1x128x2176) ![0, 0, 0] ![1, 128, 128] inb_S1x128x2176_S1x128x128_0_0_0).emb x) 2).val < 128 := by
        show 0 + 1 * (x 2).val < 128; omega
      unfold blockK
      rw [dif_pos hx]
      have hi : (ix3 (0 : Fin 1) (((Rect.unit (s := S1x128x2176) ![0, 0, 0] ![1, 128, 128] inb_S1x128x2176_S1x128x128_0_0_0).emb x) 1)
          (⟨(((Rect.unit (s := S1x128x2176) ![0, 0, 0] ![1, 128, 128] inb_S1x128x2176_S1x128x128_0_0_0).emb x) 2).val, hx⟩ : Fin 128) : S1x128x128.Idx) = x := by
        funext a; apply Fin.ext
        match a with
        | ⟨0, _⟩ => have h0 : (x 0).val < 1 := (x 0).isLt; show 0 = (x 0).val; omega
        | ⟨1, _⟩ => show 0 + 1 * (x 1).val = (x 1).val; omega
        | ⟨2, _⟩ => show 0 + 1 * (x 2).val = (x 2).val; omega
      rw [hi]
      rfl
  · by_cases h : (y 2).val < 128
    · refine ⟨_, List.mem_cons_of_mem _ (List.mem_singleton_self _), ?_⟩
      show y ∈ (Rect.unit (s := S1x128x2176) ![0, 0, 0] ![1, 128, 128] inb_S1x128x2176_S1x128x128_0_0_0).set
      rw [Rect.mem_set_unit]
      intro a
      match a with
      | ⟨0, _⟩ => have h0 : (y 0).val < 1 := (y 0).isLt; show 0 ≤ (y 0).val ∧ (y 0).val < 0 + 1; omega
      | ⟨1, _⟩ => have h1 : (y 1).val < 128 := (y 1).isLt; show 0 ≤ (y 1).val ∧ (y 1).val < 0 + 128; omega
      | ⟨2, _⟩ => show 0 ≤ (y 2).val ∧ (y 2).val < 0 + 128; omega
    · refine ⟨_, List.mem_cons_self, ?_⟩
      show y ∈ (Rect.unit (s := S1x128x2176) ![0, 0, 128] ![1, 128, 2048] inb_S1x128x2176_S1x128x2048_0_0_128).set
      rw [Rect.mem_set_unit]
      intro a
      match a with
      | ⟨0, _⟩ => have h0 : (y 0).val < 1 := (y 0).isLt; show 0 ≤ (y 0).val ∧ (y 0).val < 0 + 1; omega
      | ⟨1, _⟩ => have h1 : (y 1).val < 128 := (y 1).isLt; show 0 ≤ (y 1).val ∧ (y 1).val < 0 + 128; omega
      | ⟨2, _⟩ => have h2 : (y 2).val < 2176 := (y 2).isLt; show 128 ≤ (y 2).val ∧ (y 2).val < 128 + 2048; omega

end Cert.Gcn

end
-- ==== Proof.LibPlainMatmul.lean ====
/-
  A plain matrix product into a zero accumulator, read at one entry over the extended reals.

  For `a : [M, K]` and `b : [K, N]` under the dimension numbers "contract the left operand's axis 1 with the right
  operand's axis 0, no batch axis" (`DotDims.plain M K N`), the product accumulated into the zero splat is, at entry
  `(i, l)`, the sum over the contracted coordinate `k` of `a (i, k) * b (k, l)`: the contraction index of these
  dimension numbers has one axis of extent `K`, so the sum over it is re-indexed by its one coordinate, and the operand
  indices at `(i, l)` and `k` are `(i, k)` and `(k, l)`. Nothing is assumed of the entries (they may be infinite).
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand is read on row `i` of the output entry, -/
theorem lhs_row (j : (⟨2, ![M, N]⟩ : Shape).Idx) (q : (DotDims.plain M K N).contr.Idx) :
    ((DotDims.plain M K N).lhsIdx j q 0).val = (j 0).val := rfl
/-- at the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate, -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- on column `l` of the output entry. -/
theorem rhs_col (j : (⟨2, ![M, N]⟩ : Shape).Idx) (q : (DotDims.plain M K N).contr.Idx) :
    ((DotDims.plain M K N).rhsIdx j q 1).val = (j 1).val := rfl

/-- THE PRODUCT AT AN ENTRY: `(a · b) (i, l) = ∑ k, a (i, k) * b (k, l)`, into the zero accumulator. -/
theorem matmul_zero_apply {φ₁ φ₂ : FTy} (prec : Option ContractPrecision)
    (a : FVec Ideal ⟨2, ![M, K]⟩ φ₁) (b : FVec Ideal ⟨2, ![K, N]⟩ φ₂) (i : Fin M) (l : Fin N) :
    FloatOps.matmul (DotDims.plain M K N) prec a b (constant (F := Ideal) ⟨2, ![M, N]⟩ .f32 0x00000000#32) (ix2 i l)
      = ∑ k : Fin K, a (ix2 i k) * b (ix2 k l) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i l) ((contrEquiv1 (DotDims.plain M K N) K rfl rfl).symm k) = ix2 i k :=
    funext fun c => Fin.ext (by
      match c with
      | ⟨0, _⟩ => exact lhs_row M K N _ _
      | ⟨1, _⟩ => exact (lhs_col M K N _ _).trans hk)
  have er : (DotDims.plain M K N).rhsIdx (ix2 i l) ((contrEquiv1 (DotDims.plain M K N) K rfl rfl).symm k) = ix2 k l :=
    funext fun c => Fin.ext (by
      match c with
      | ⟨0, _⟩ => exact (rhs_row M K N _ _).trans hk
      | ⟨1, _⟩ => exact rhs_col M K N _ _)
  rw [el, er]

end Idealize.ShloMosaic.PlainMatmul

end
-- ==== Proof.KRadix.lean ====
/-
  The kernel's sum of table rows, read at an entry.

  One batch member's block holds relation words w (i, j), all below 512. The kernel writes each word as
  w = 32 * hi + lo with hi = w / 32 below 16 and lo = w % 32, builds for every column j the 0/1 masks
  [hi (i, j) = h] and [lo (i, j) = l], and multiplies them over i: count (j, h, l) is the number of i whose word
  (i, j) has the pair (h, l). The sixteen slices count (·, h, ·), each a [128, 32] matrix, are multiplied into the
  32 table rows 32 h … 32 h + 31 and added up from zero:

      ∑ h, ∑ l, count (j, h, l) * T (32 h + l, d).

  Each count is a finite sum of products of indicators, so it distributes over the table entry (right distributivity
  holds in the extended reals for nonnegative left terms), the sums over (h, l) and i change places, and for each i
  the indicators leave the one pair (hi, lo) of its own word: the value is ∑ i, T (w (i, j), d), the sum over i of the
  table rows the words of column j name. Nothing is assumed of the table's entries.
-/
import proofs.«406823_j32375463477528_3_alg».proof.Proof.Gen.KernelIdeal.Skeleton
import proofs.«406823_j32375463477528_3_alg».proof.Proof.Spec
import proofs.«406823_j32375463477528_3_alg».proof.Proof.KDefs
import proofs.«406823_j32375463477528_3_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value
import Mathlib.Data.EReal.Operations
import Mathlib.Algebra.BigOperators.Fin
import Mathlib.Algebra.Order.BigOperators.Group.Finset

noncomputable section

namespace Cert.Gcn.KRadix

open Cert.KernelIdeal Cert.KernelIdeal.Gen Idealize.ShloMosaic Idealize.ShloMosaic.ValueIdx

/-- The high part of a word: its quotient by 32, reduced below 16. -/
def hiOf (w : BitVec 32) : Fin 16 := ⟨(w.toNat / 32) % 16, Nat.mod_lt _ (by decide)⟩
/-- The low part of a word: its remainder by 32. -/
def loOf (w : BitVec 32) : Fin 32 := ⟨w.toNat % 32, Nat.mod_lt _ (by decide)⟩

/-- An arithmetic right shift by 5 of a word below 512 is its quotient by 32. -/
theorem shrsi_five (w : BitVec 32) (hw : w.toNat < 512) :
    IntOp.shrsi .vector w 5#32 = BitVec.ofNat 32 (hiOf w).val := by
  unfold IntOp.shrsi hiOf
  rw [if_pos (by decide)]
  have hm : w.msb = false := by
    rw [BitVec.msb_eq_decide]; simp; omega
  rw [BitVec.sshiftRight', BitVec.sshiftRight_eq_of_msb_false hm]
  apply BitVec.eq_of_toNat_eq
  simp [Nat.shiftRight_eq_div_pow]
  omega

/-- The low five bits of a word are its remainder by 32. -/
theorem andi_31 (w : BitVec 32) : IntOp.andi w 31#32 = BitVec.ofNat 32 (loOf w).val := by
  unfold IntOp.andi loOf
  apply BitVec.eq_of_toNat_eq
  rw [BitVec.toNat_and]
  show w.toNat &&& (2^5 - 1) = _
  rw [Nat.and_two_pow_sub_one_eq_mod]
  simp
  omega

/-- Two words written from numbers below 2^32 are equal exactly when the numbers are. -/
theorem ofNat_eq_iff (a b : Nat) (ha : a < 2^32) (hb : b < 2^32) : BitVec.ofNat 32 a = BitVec.ofNat 32 b ↔ a = b := by
  constructor
  · intro h
    have e := congrArg BitVec.toNat h
    rw [BitVec.toNat_ofNat, BitVec.toNat_ofNat, Nat.mod_eq_of_lt ha, Nat.mod_eq_of_lt hb] at e
    exact e
  · intro h; rw [h]

/-- A comparison's bit, widened and read as a signed integer, is the indicator of the equality. -/
theorem ind_apply (a b : BitVec 32) :
    FloatOps.sitofp (F := Ideal) .f32 ((IntOp.cmpi .eq a b).setWidth 32) = if a = b then (1 : EReal) else 0 := by
  show (((BitVec.setWidth 32 (BitVec.ofBool (a == b))).toInt : ℝ) : EReal) = _
  by_cases hab : a = b
  · subst hab
    rw [if_pos rfl, beq_self_eq_true]
    show (((1 : ℤ) : ℝ) : EReal) = 1
    simp
  · rw [if_neg hab, beq_eq_false_iff_ne.mpr hab]
    show (((0 : ℤ) : ℝ) : EReal) = 0
    simp

/-- The mask of the high parts at (j, h, i): the indicator that entry (j, i) is the word h. -/
theorem hiMask_apply (y : IVec S128x128 32) (j : Fin 128) (h : Fin 16) (i : Fin 128) :
    (truncf .bf16 (sitofp (F := Ideal) .f32 (extui 32 (cmpi .eq
        (broadcastTo S128x16x128 (shapeCast S128x1x128 y shapeCasts_S128x128_S128x1x128) broadcasts_S128x1x128_S128x16x128)
        (iota .tc S128x16x128 32 [1] iota_S128x16x128_d1_w32)) natLt_1_32)) bitsLt_bf16_f32) (ix3 j h i)
      = if y (ix2 j i) = BitVec.ofNat 32 h.val then 1 else 0 := by
  show FloatOps.sitofp (F := Ideal) .f32 ((IntOp.cmpi .eq
        (broadcastTo S128x16x128 (shapeCast S128x1x128 y shapeCasts_S128x128_S128x1x128) broadcasts_S128x1x128_S128x16x128 (ix3 j h i))
        (iota .tc S128x16x128 32 [1] iota_S128x16x128_d1_w32 (ix3 j h i))).setWidth 32) = _
  rw [ind_apply, iota_single_apply,
    broadcastTo_apply _ broadcasts_S128x1x128_S128x16x128 (ix3 j h i) (ix3 j (0 : Fin 1) i) (fun a => by
      match a with
      | ⟨0, _⟩ => rfl
      | ⟨1, _⟩ => rfl
      | ⟨2, _⟩ => rfl),
    shapeCast_apply y shapeCasts_S128x128_S128x1x128 (ix3 j (0 : Fin 1) i) (ix2 j i) (by
      rw [Shape.rowMajor_val_three, Shape.rowMajor_val_two]
      show j.val * 128 + i.val = (j.val * 1 + 0) * 128 + i.val
      omega)]

/-- The mask of the low parts at (j, l, i): the indicator that entry (j, i) is the word l. -/
theorem loMask_apply (y : IVec S128x128 32) (j : Fin 128) (l : Fin 32) (i : Fin 128) :
    (truncf .bf16 (sitofp (F := Ideal) .f32 (extui 32 (cmpi .eq
        (broadcastTo S128x32x128 (shapeCast S128x1x128 y shapeCasts_S128x128_S128x1x128) broadcasts_S128x1x128_S128x32x128)
        (iota .tc S128x32x128 32 [1] iota_S128x32x128_d1_w32)) natLt_1_32)) bitsLt_bf16_f32) (ix3 j l i)
      = if y (ix2 j i) = BitVec.ofNat 32 l.val then 1 else 0 := by
  show FloatOps.sitofp (F := Ideal) .f32 ((IntOp.cmpi .eq
        (broadcastTo S128x32x128 (shapeCast S128x1x128 y shapeCasts_S128x128_S128x1x128) broadcasts_S128x1x128_S128x32x128 (ix3 j l i))
        (iota .tc S128x32x128 32 [1] iota_S128x32x128_d1_w32 (ix3 j l i))).setWidth 32) = _
  rw [ind_apply, iota_single_apply,
    broadcastTo_apply _ broadcasts_S128x1x128_S128x32x128 (ix3 j l i) (ix3 j (0 : Fin 1) i) (fun a => by
      match a with
      | ⟨0, _⟩ => rfl
      | ⟨1, _⟩ => rfl
      | ⟨2, _⟩ => rfl),
    shapeCast_apply y shapeCasts_S128x128_S128x1x128 (ix3 j (0 : Fin 1) i) (ix2 j i) (by
      rw [Shape.rowMajor_val_three, Shape.rowMajor_val_two]
      show j.val * 128 + i.val = (j.val * 1 + 0) * 128 + i.val
      omega)]

/-- The batched product of the two masks into the zero accumulator, at (j, h, l): batch axis 0, both operands
    contracted along their last axis, so the sum runs over the one contracted coordinate i. -/
theorem counts_matmul {φ₁ φ₂ : FTy} (prec : Option ContractPrecision)
    (A : FVec Ideal S128x16x128 φ₁) (B : FVec Ideal S128x32x128 φ₂) (j : Fin 128) (h : Fin 16) (l : Fin 32) :
    FloatOps.matmul dot_S128x16x128_S128x32x128_S128x16x32_2_2_1_1_0_0 prec A B
        (constant (F := Ideal) S128x16x32 .f32 0x00000000#32) (ix3 j h l)
      = ∑ i : Fin 128, A (ix3 j h i) * B (ix3 j l i) := by
  rw [Ideal.matmul_constant_zero_apply,
    ← Equiv.sum_comp (contrEquiv1 dot_S128x16x128_S128x32x128_S128x16x32_2_2_1_1_0_0 128 rfl rfl).symm]
  refine Finset.sum_congr rfl fun i _ => ?_
  have c3 := contrEquiv1_symm_val dot_S128x16x128_S128x32x128_S128x16x32_2_2_1_1_0_0 128 rfl rfl i
  have l3 : dot_S128x16x128_S128x32x128_S128x16x32_2_2_1_1_0_0.lhsIdx (ix3 j h l)
      ((contrEquiv1 dot_S128x16x128_S128x32x128_S128x16x32_2_2_1_1_0_0 128 rfl rfl).symm i) = ix3 j h i := by
    funext ax; apply Fin.ext
    match ax with
    | ⟨0, _⟩ => rfl
    | ⟨1, _⟩ => rfl
    | ⟨2, _⟩ => exact (dot_S128x16x128_S128x32x128_S128x16x32_2_2_1_1_0_0.lhsIdx_val_of_single rfl _ _).trans c3
  have r3 : dot_S128x16x128_S128x32x128_S128x16x32_2_2_1_1_0_0.rhsIdx (ix3 j h l)
      ((contrEquiv1 dot_S128x16x128_S128x32x128_S128x16x32_2_2_1_1_0_0 128 rfl rfl).symm i) = ix3 j l i := by
    funext ax; apply Fin.ext
    match ax with
    | ⟨0, _⟩ => rfl
    | ⟨1, _⟩ => rfl
    | ⟨2, _⟩ => exact (dot_S128x16x128_S128x32x128_S128x16x32_2_2_1_1_0_0.rhsIdx_val_of_single rfl _ _).trans c3
  rw [l3, r3]

/-- The counts at (j, h, l): the number of i whose word (i, j) has high part h and low part l, as a sum of products
    of indicators. -/
theorem k0_pay4_apply (x0 : Vec Ideal S1x128x128 .i32)
    (hr : ∀ i j : Fin 128, (x0 (ix3 (0 : Fin 1) i j)).toNat < 512) (j : Fin 128) (h : Fin 16) (l : Fin 32) :
    k0_pay4 x0 (ix3 j h l)
      = ∑ i : Fin 128, (if hiOf (x0 (ix3 (0 : Fin 1) i j)) = h then (1 : EReal) else 0)
          * (if loOf (x0 (ix3 (0 : Fin 1) i j)) = l then 1 else 0) := by
  unfold k0_pay4 k0_pay3
  dsimp only
  refine Eq.trans (counts_matmul none _ _ j h l) ?_
  refine Finset.sum_congr rfl fun i _ => ?_
  rw [hiMask_apply, loMask_apply]
  have ew : transpose S128x128 [1, 0] (shapeCast S128x128 x0 shapeCasts_S1x128x128_S128x128)
      transposes_S128x128_p1_0_S128x128 (ix2 j i) = x0 (ix3 (0 : Fin 1) i j) := by
    rw [transpose_ix2_apply, shapeCast_1ab_ab_apply]
  have e1 : shrsi (transpose S128x128 [1, 0] (shapeCast S128x128 x0 shapeCasts_S1x128x128_S128x128)
      transposes_S128x128_p1_0_S128x128) (broadcast S128x128 5#32) (ix2 j i)
        = BitVec.ofNat 32 (hiOf (x0 (ix3 (0 : Fin 1) i j))).val := by
    show IntOp.shrsi .vector (transpose S128x128 [1, 0] (shapeCast S128x128 x0 shapeCasts_S1x128x128_S128x128)
      transposes_S128x128_p1_0_S128x128 (ix2 j i)) 5#32 = _
    rw [ew, shrsi_five _ (hr i j)]
  have e2 : andi (transpose S128x128 [1, 0] (shapeCast S128x128 x0 shapeCasts_S1x128x128_S128x128)
      transposes_S128x128_p1_0_S128x128) (broadcast S128x128 31#32) (ix2 j i)
        = BitVec.ofNat 32 (loOf (x0 (ix3 (0 : Fin 1) i j))).val := by
    show IntOp.andi (transpose S128x128 [1, 0] (shapeCast S128x128 x0 shapeCasts_S1x128x128_S128x128)
      transposes_S128x128_p1_0_S128x128 (ix2 j i)) 31#32 = _
    rw [ew, andi_31]
  rw [e1, e2]
  have q1 : (BitVec.ofNat 32 (hiOf (x0 (ix3 (0 : Fin 1) i j))).val = BitVec.ofNat 32 h.val)
      ↔ hiOf (x0 (ix3 (0 : Fin 1) i j)) = h := by
    rw [ofNat_eq_iff _ _ (by have := (hiOf (x0 (ix3 (0 : Fin 1) i j))).isLt; omega) (by have := h.isLt; omega)]
    exact Fin.val_inj
  have q2 : (BitVec.ofNat 32 (loOf (x0 (ix3 (0 : Fin 1) i j))).val = BitVec.ofNat 32 l.val)
      ↔ loOf (x0 (ix3 (0 : Fin 1) i j)) = l := by
    rw [ofNat_eq_iff _ _ (by have := (loOf (x0 (ix3 (0 : Fin 1) i j))).isLt; omega) (by have := l.isLt; omega)]
    exact Fin.val_inj
  simp only [q1, q2]

/-- A finite sum of nonnegative extended reals times a factor is the sum of the products: right distributivity, which
    holds in the extended reals when the terms on the left are nonnegative. -/
theorem sum_mul_of_nonneg {ι : Type} (s : Finset ι) (c : ι → EReal) (hc : ∀ i, 0 ≤ c i) (t : EReal) :
    (∑ i ∈ s, c i) * t = ∑ i ∈ s, c i * t := by
  classical
  induction s using Finset.induction_on with
  | empty => simp
  | insert a s ha ih =>
    rw [Finset.sum_insert ha, Finset.sum_insert ha,
      EReal.right_distrib_of_nonneg (hc a) (Finset.sum_nonneg fun i _ => hc i), ih]

/-- A product of two indicators is nonnegative. -/
theorem ind_mul_ind_nonneg (p q : Prop) [Decidable p] [Decidable q] :
    (0 : EReal) ≤ (if p then (1 : EReal) else 0) * (if q then 1 else 0) := by
  split_ifs <;> simp

/-- Summed over all pairs (h, l), the indicator of (a, b) picks out the value at (a, b). -/
theorem sum_ind_ind (a : Fin 16) (b : Fin 32) (f : Fin 16 → Fin 32 → EReal) :
    ∑ h : Fin 16, ∑ l : Fin 32, ((if a = h then (1 : EReal) else 0) * (if b = l then 1 else 0)) * f h l = f a b := by
  rw [Finset.sum_eq_single a]
  · rw [Finset.sum_eq_single b]
    · rw [if_pos rfl, if_pos rfl, one_mul, one_mul]
    · intro l _ hl
      rw [if_neg (Ne.symm hl), mul_zero, zero_mul]
    · intro hb; exact absurd (Finset.mem_univ _) hb
  · intro h _ hh
    refine Finset.sum_eq_zero fun l _ => ?_
    rw [if_neg (Ne.symm hh), zero_mul, zero_mul]
  · intro ha; exact absurd (Finset.mem_univ _) ha

/-- THE COUNTING IDENTITY. Weighting the value at (h, l) by the number of i whose pair is (h, l), and summing over all
    pairs, is summing the value at each i's own pair. -/
theorem counting (a : Fin 128 → Fin 16) (b : Fin 128 → Fin 32) (f : Fin 16 → Fin 32 → EReal) :
    ∑ h : Fin 16, ∑ l : Fin 32,
        (∑ i : Fin 128, (if a i = h then (1 : EReal) else 0) * (if b i = l then 1 else 0)) * f h l
      = ∑ i : Fin 128, f (a i) (b i) := by
  have e1 : ∀ (h : Fin 16) (l : Fin 32),
      (∑ i : Fin 128, (if a i = h then (1 : EReal) else 0) * (if b i = l then 1 else 0)) * f h l
        = ∑ i : Fin 128, ((if a i = h then (1 : EReal) else 0) * (if b i = l then 1 else 0)) * f h l :=
    fun h l => sum_mul_of_nonneg _ _ (fun i => ind_mul_ind_nonneg _ _) _
  calc ∑ h : Fin 16, ∑ l : Fin 32,
        (∑ i : Fin 128, (if a i = h then (1 : EReal) else 0) * (if b i = l then 1 else 0)) * f h l
      = ∑ h : Fin 16, ∑ l : Fin 32, ∑ i : Fin 128,
          ((if a i = h then (1 : EReal) else 0) * (if b i = l then 1 else 0)) * f h l :=
        Finset.sum_congr rfl fun h _ => Finset.sum_congr rfl fun l _ => e1 h l
    _ = ∑ h : Fin 16, ∑ i : Fin 128, ∑ l : Fin 32,
          ((if a i = h then (1 : EReal) else 0) * (if b i = l then 1 else 0)) * f h l :=
        Finset.sum_congr rfl fun h _ => Finset.sum_comm
    _ = ∑ i : Fin 128, ∑ h : Fin 16, ∑ l : Fin 32,
          ((if a i = h then (1 : EReal) else 0) * (if b i = l then 1 else 0)) * f h l := Finset.sum_comm
    _ = ∑ i : Fin 128, f (a i) (b i) := Finset.sum_congr rfl fun i _ => sum_ind_ind (a i) (b i) f

/-- Sixteen terms added one after another onto zero are their sum over the sixteen indices. -/
theorem sum_sixteen (C : Fin 16 → EReal) :
    0 + C 0 + C 1 + C 2 + C 3 + C 4 + C 5 + C 6 + C 7 + C 8 + C 9 + C 10 + C 11 + C 12 + C 13 + C 14 + C 15
      = ∑ h : Fin 16, C h := by
  simp only [Fin.sum_univ_castSucc, Fin.sum_univ_zero]
  rfl

/-- The program's plain [128, 32] by [32, 128] product into the zero accumulator, at (j, d): the sum over the contracted
    coordinate. -/
theorem plain_apply (a : FVec Ideal S128x32 .f32) (b : FVec Ideal S32x128 .f32) (j d : Fin 128) :
    matmul dot_S128x32_S32x128_S128x128_1_0_0_1_n_n (some .fp32) a b (constant S128x128 .f32 0x00000000#32) (ix2 j d)
      = ∑ l : Fin 32, a (ix2 j l) * b (ix2 l d) :=
  PlainMatmul.matmul_zero_apply 128 32 128 (φ₁ := .f32) (φ₂ := .f32) (some .fp32) a b j d

/-- One chunk of the table product at (j, d): the slice h of the counts, as a [128, 32] matrix, times the 32 table rows
    of that slice, is the sum over the low part l of count (j, h, l) times row l of the slice. -/
theorem chunk_apply (c : FVec Ideal S128x16x32 .f32) (sh : FVec Ideal S32x128 .f32) (o : Nat)
    (hsl : S128x16x32.Slices ![0, o, 0] S128x1x32) (h : Fin 16) (ho : h.val = o) (j d : Fin 128) :
    matmul dot_S128x32_S32x128_S128x128_1_0_0_1_n_n (some .fp32)
        (shapeCast S128x32 (extractStridedSlice S128x1x32 ![0, o, 0] c hsl) shapeCasts_S128x1x32_S128x32) sh
        (constant S128x128 .f32 0x00000000#32) (ix2 j d)
      = ∑ l : Fin 32, c (ix3 j h l) * sh (ix2 l d) := by
  rw [plain_apply]
  refine Finset.sum_congr rfl fun l _ => ?_
  rw [shapeCast_apply _ shapeCasts_S128x1x32_S128x32 (ix2 j l) (ix3 j (0 : Fin 1) l) (by
      rw [Shape.rowMajor_val_three, Shape.rowMajor_val_two]
      show (j.val * 1 + 0) * 32 + l.val = j.val * 32 + l.val
      omega),
    slice3_axis1_apply o c hsl j (0 : Fin 1) l h (by rw [ho]; rfl)]

end Cert.Gcn.KRadix

namespace Cert.Gcn

open Cert.KernelIdeal Cert.KernelIdeal.Gen Idealize.ShloMosaic Idealize.ShloMosaic.ValueIdx Cert.Gcn.KRadix

/-- THE KERNEL'S SUM OF TABLE ROWS. From words below 512 the kernel splits each word into its high and low parts, counts
    for every column j the words with each pair (h, l), and multiplies the counts into the table one 32-row slice at a
    time; the sum it accumulates at (j, d) is the sum over i of the table rows the words (i, j) name, at feature d. -/
theorem relsumK_apply (x0 : Vec Ideal S1x128x128 .i32) (s : Fin 16 → Vec Ideal S32x128 .f32) (T : Fin 512 → Fin 128 → EReal)
    (hs : ∀ (h : Fin 16) (l : Fin 32) (d : Fin 128), s h (ix2 l d) = T ⟨32 * h.val + l.val, by omega⟩ d)
    (hr : ∀ i j : Fin 128, (x0 (ix3 (0 : Fin 1) i j)).toNat < 512) (j d : Fin 128) :
    relsumK x0 s (ix2 j d) = relsum T (fun i j => rowOf (x0 (ix3 (0 : Fin 1) i j))) j d := by
  have step1 : relsumK x0 s (ix2 j d)
      = ∑ h : Fin 16, ∑ l : Fin 32, k0_pay4 x0 (ix3 j h l) * s h (ix2 l d) := by
    rw [← sum_sixteen]
    unfold relsumK k0_pay9 k0_pay7 k0_pay5 k0_pay6 k0_pay8
    dsimp only
    simp only [addf_apply, broadcast_apply]
    rw [chunk_apply (k0_pay4 x0) (s 0) 0 slices_S128x16x32_o0_0_0_S128x1x32 0 rfl j d,
      chunk_apply (k0_pay4 x0) (s 1) 1 slices_S128x16x32_o0_1_0_S128x1x32 1 rfl j d,
      chunk_apply (k0_pay4 x0) (s 2) 2 slices_S128x16x32_o0_2_0_S128x1x32 2 rfl j d,
      chunk_apply (k0_pay4 x0) (s 3) 3 slices_S128x16x32_o0_3_0_S128x1x32 3 rfl j d,
      chunk_apply (k0_pay4 x0) (s 4) 4 slices_S128x16x32_o0_4_0_S128x1x32 4 rfl j d,
      chunk_apply (k0_pay4 x0) (s 5) 5 slices_S128x16x32_o0_5_0_S128x1x32 5 rfl j d,
      chunk_apply (k0_pay4 x0) (s 6) 6 slices_S128x16x32_o0_6_0_S128x1x32 6 rfl j d,
      chunk_apply (k0_pay4 x0) (s 7) 7 slices_S128x16x32_o0_7_0_S128x1x32 7 rfl j d,
      chunk_apply (k0_pay4 x0) (s 8) 8 slices_S128x16x32_o0_8_0_S128x1x32 8 rfl j d,
      chunk_apply (k0_pay4 x0) (s 9) 9 slices_S128x16x32_o0_9_0_S128x1x32 9 rfl j d,
      chunk_apply (k0_pay4 x0) (s 10) 10 slices_S128x16x32_o0_10_0_S128x1x32 10 rfl j d,
      chunk_apply (k0_pay4 x0) (s 11) 11 slices_S128x16x32_o0_11_0_S128x1x32 11 rfl j d,
      chunk_apply (k0_pay4 x0) (s 12) 12 slices_S128x16x32_o0_12_0_S128x1x32 12 rfl j d,
      chunk_apply (k0_pay4 x0) (s 13) 13 slices_S128x16x32_o0_13_0_S128x1x32 13 rfl j d,
      chunk_apply (k0_pay4 x0) (s 14) 14 slices_S128x16x32_o0_14_0_S128x1x32 14 rfl j d,
      chunk_apply (k0_pay4 x0) (s 15) 15 slices_S128x16x32_o0_15_0_S128x1x32 15 rfl j d]
    rw [show (Scalar.ofBits (F := Ideal) .f32 0x00000000#32 : EReal) = 0 from Ideal.ofBits_zero_f32]
  rw [step1]
  have step2 : ∀ (h : Fin 16) (l : Fin 32), k0_pay4 x0 (ix3 j h l) * s h (ix2 l d)
      = (∑ i : Fin 128, (if hiOf (x0 (ix3 (0 : Fin 1) i j)) = h then (1 : EReal) else 0)
          * (if loOf (x0 (ix3 (0 : Fin 1) i j)) = l then 1 else 0))
        * (fun (h : Fin 16) (l : Fin 32) => T ⟨32 * h.val + l.val, by omega⟩ d) h l := by
    intro h l
    rw [k0_pay4_apply x0 hr j h l, hs h l d]
  rw [Finset.sum_congr rfl fun h _ => Finset.sum_congr rfl fun l _ => step2 h l]
  rw [counting (fun i => hiOf (x0 (ix3 (0 : Fin 1) i j))) (fun i => loOf (x0 (ix3 (0 : Fin 1) i j)))]
  unfold relsum
  refine Finset.sum_congr rfl fun i _ => ?_
  show T ⟨32 * (hiOf (x0 (ix3 (0 : Fin 1) i j))).val + (loOf (x0 (ix3 (0 : Fin 1) i j))).val, _⟩ d
    = T (rowOf (x0 (ix3 (0 : Fin 1) i j))) d
  congr 1
  apply Fin.ext
  have := hr i j
  show 32 * ((x0 (ix3 (0 : Fin 1) i j)).toNat / 32 % 16) + (x0 (ix3 (0 : Fin 1) i j)).toNat % 32
    = (x0 (ix3 (0 : Fin 1) i j)).toNat % 512
  omega

end Cert.Gcn

end
-- ==== Proof.LibColumnLayout.lean ====
/-
  A column kept as a trailing unit axis, read at an index given by coordinates.

  A sum along the last axis with the reduced axis kept has shape `[a, 1]`: a vector's value for row `p` sits at
  `(p, 0)`. Two layout steps surround such a column: the cast of an `[a]` vector to the `[a, 1]` column (entry `(p, u)`
  is the vector's entry `p`, since the row-major position `p · 1 + u` is `p`), and the broadcast of the column along a
  new last axis of length `b` (entry `(p, c)` is the column's entry `(p, 0)`, whatever `c`). Both are stated for any
  element type and any extents, over indices written by coordinates.
-/
import Idealize.ShloMosaic.Lib.Pipeline.Value
import Idealize.ShloMosaic.Lib.ValueIdx

namespace Idealize.ShloMosaic.ValueIdx

open Idealize.ShloMosaic

variable {α : Type}

/-- An `[a]` vector cast to the `[a, 1]` column reads, at `(p, u)`, the vector at `p`: the unit coordinate `u` is `0`, so
    both row-major positions are `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry for row `p`: the row coordinate is
    kept (when `a = 1` it is `0` either way), the unit axis reads its only entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KLayer.lean ====
/-
  The kernel body's two layers, read entry by entry.

  For one batch member the body turns the 128 × 128 block of relation words into an adjacency matrix (1 where the signed
  word is positive, else 0), sums each row into a degree column, replaces a zero degree by one to get the divisor, and
  keeps the ratio degree / divisor. A layer with state x, summed table rows rs and transposed parameter blocks then forms
  Y = (x ⊙ rs) · Wbᵀ, the neighbour sum A · Y, the linear part x · Waᵀ + ba, and the new state
  tanh ((((x · Waᵀ + ba) + (A · Y) / divisor) + (ratio · 128) · bb) + x), the column quantities broadcast along rows and the
  biases along columns. Narrowing a value to the shorter float format changes nothing over the extended reals, a cast to
  the same shape is the identity, and the three constant words denote 0, 1 and 128.

  Each named value of the body is read at explicit coordinates, generically in its argument vectors; the last theorem composes them into
  the two-layer state of the first arrangement in the shared mathematics.
-/
import proofs.«406823_j32375463477528_3_alg».proof.Proof.Gen.KernelIdeal.Skeleton
import proofs.«406823_j32375463477528_3_alg».proof.Proof.Spec
import proofs.«406823_j32375463477528_3_alg».proof.Proof.KDefs
import proofs.«406823_j32375463477528_3_alg».proof.Proof.LibPlainMatmul
import proofs.«406823_j32375463477528_3_alg».proof.Proof.LibColumnLayout
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Gcn

open Cert.KernelIdeal Cert.KernelIdeal.Gen Idealize.ShloMosaic Idealize.ShloMosaic.ValueIdx

/-! ## Constants and one-bit words -/

/-- The word `0x3F800000` denotes the real one. -/
theorem ofBits_one_f32 : Ideal.ofBits .f32 0x3F800000#32 = 1 := by
  simp [Ideal.ofBits, Ideal.ieee, -EReal.coe_mul]; norm_num

/-- The word `0x43000000` denotes 128. -/
theorem ofBits_128_f32 : Ideal.ofBits .f32 0x43000000#32 = 128 := by
  simp [Ideal.ofBits, Ideal.ieee, -EReal.coe_mul]; norm_num
  rfl

/-- The set bit widened to 32 bits is the integer one … -/
theorem toInt_ofBool_true : ((BitVec.ofBool true).setWidth 32).toInt = 1 := by decide
/-- … and the cleared bit is zero. -/
theorem toInt_ofBool_false : ((BitVec.ofBool false).setWidth 32).toInt = 0 := by decide

/-- The hyperbolic tangent of a vector read at an index is that of the element. -/
theorem tanhv_apply {s : Shape} {φ : FTy} (a : FVec Ideal s φ) (i : s.Idx) : tanh a i = Ideal.tanh (a i) := rfl

/-! ## The adjacency, the degree and its guarded divisor -/

/-- The relation block with its leading unit axis dropped reads entry `(k, j)` at `(0, k, j)`. -/
theorem pay3_apply (x0 : Vec Ideal S1x128x128 .i32) (k j : Fin 128) :
    k0_pay3 x0 (ix2 k j) = x0 (ix3 (0 : Fin 1) k j) :=
  shapeCast_1ab_ab_apply x0 _ k j

/-- "Word positive" as a float: the signed comparison's bit, widened and converted, is the adjacency of the word. -/
theorem pay10_apply (v1 : IVec S128x128 32) (i : S128x128.Idx) :
    k0_pay10 (F := Ideal) v1 i = adjOf (v1 i) := by
  show (((((BitVec.ofBool ((0#32).slt (v1 i))).setWidth 32).toInt : ℝ)) : EReal) = adjOf (v1 i)
  unfold adjOf
  by_cases h : 0 < (v1 i).toInt
  · have hs : (0#32).slt (v1 i) = true := by simp [BitVec.slt, h]
    rw [hs, if_pos h, toInt_ofBool_true, Int.cast_one, EReal.coe_one]
  · have hs : (0#32).slt (v1 i) = false := by simp [BitVec.slt, h]
    rw [hs, if_neg h, toInt_ofBool_false, Int.cast_zero, EReal.coe_zero]

/-- The adjacency in the narrower format is the same extended real. -/
theorem pay14_apply (v1 : IVec S128x128 32) (i : S128x128.Idx) :
    k0_pay14 (F := Ideal) v1 i = adjOf (v1 i) :=
  pay10_apply v1 i

/-- The degree column: the sum of row `k` of the adjacency, kept at `(k, 0)`. -/
theorem pay11_apply (v1 : IVec S128x128 32) (k : Fin 128) (u : Fin 1) :
    k0_pay11 (F := Ideal) v1 (ix2 k u) = deg (fun k j => adjOf (v1 (ix2 k j))) k := by
  unfold k0_pay11 deg
  refine (shapeCast_a_a1_apply _ _ k u).trans ?_
  refine (Ideal.multiReduction_add_single _ _ _ _ _ _).trans ?_
  refine Finset.sum_congr rfl fun j _ => ?_
  rw [pay10_apply]
  congr 2
  funext a
  match a with
  | ⟨0, _⟩ => rfl
  | ⟨1, _⟩ => rfl

/-- The divisor column: the degree, with zero replaced by one. -/
theorem pay12_apply (v1 : IVec S128x128 32) (k : Fin 128) (u : Fin 1) :
    k0_pay12 (F := Ideal) v1 (ix2 k u) = degc (fun k j => adjOf (v1 (ix2 k j))) k := by
  show Scalar.select (Ideal.cmp .oeq (k0_pay11 (F := Ideal) v1 (ix2 k u)) (Ideal.ofBits .f32 0x00000000#32))
      (Ideal.ofBits .f32 0x3F800000#32) (k0_pay11 (F := Ideal) v1 (ix2 k u)) = _
  rw [pay11_apply, Ideal.ofBits_zero_f32, ofBits_one_f32]
  unfold degc Scalar.select Ideal.cmp
  by_cases h : deg (fun k j => adjOf (v1 (ix2 k j))) k = 0
  · rw [if_pos h, decide_eq_true h]; rfl
  · rw [if_neg h, decide_eq_false h]; rfl

/-- The ratio column: degree over divisor. -/
theorem pay13_apply (v1 : IVec S128x128 32) (k : Fin 128) (u : Fin 1) :
    k0_pay13 (F := Ideal) v1 (ix2 k u)
      = Ideal.div (deg (fun k j => adjOf (v1 (ix2 k j))) k) (degc (fun k j => adjOf (v1 (ix2 k j))) k) := by
  show Ideal.div (k0_pay11 (F := Ideal) v1 (ix2 k u)) (k0_pay12 (F := Ideal) v1 (ix2 k u)) = _
  rw [pay11_apply, pay12_apply]

/-- The initial state is cast to its own shape: unchanged. -/
theorem pay15_eq (x2 : Vec Ideal S128x128 .f32) : k0_pay15 x2 = x2 :=
  shapeCast_self x2 _

/-! ## One layer of the body, at an entry -/

/-- The body's product record is the plain one: contract the left operand's axis 1 with the right operand's axis 0. -/
theorem dot_eq_plain : dot_S128x128_S128x128_S128x128_1_0_0_1_n_n = DotDims.plain 128 128 128 := rfl

/-- A plain 128 × 128 product into the zero accumulator at an entry, for the body's product record. -/
theorem mm_apply {φ₁ φ₂ : FTy} (prec : Option ContractPrecision) (a : FVec Ideal S128x128 φ₁) (b : FVec Ideal S128x128 φ₂)
    (i l : Fin 128) :
    matmul dot_S128x128_S128x128_S128x128_1_0_0_1_n_n prec a b (constant (F := Ideal) S128x128 .f32 0x00000000#32) (ix2 i l)
      = ∑ k : Fin 128, a (ix2 i k) * b (ix2 k l) := by
  rw [dot_eq_plain]
  exact PlainMatmul.matmul_zero_apply 128 128 128 prec a b i l

/-- A length-128 vector laid along the rows of a 128 × 128 block reads its entry `e` at `(k, e)`. -/
theorem rowBcast_apply (b : FVec Ideal S128 .f32) (k e : Fin 128) :
    broadcastTo S128x128 (shapeCast S1x128 b shapeCasts_S128_S1x128) broadcasts_S1x128_S128x128 (ix2 k e) = b (ix1 e) :=
  (broadcastTo_1b_ab_apply _ _ k e).trans (shapeCast_a_1a_apply b _ 0 e)

/-- A 128 × 1 column laid along the columns of a 128 × 128 block reads its entry `k` at `(k, e)`. -/
theorem colBcast_apply (c : FVec Ideal S128x1 .f32) (k e : Fin 128) :
    broadcastTo S128x128 c broadcasts_S128x1_S128x128 (ix2 k e) = c (ix2 k (0 : Fin 1)) :=
  broadcastTo_a1_ab_apply c _ k e

/-- The first layer's new state at `(k, e)`, for any divisor column `dc`, ratio column `ra`, adjacency `A`, state `x`,
    state-times-summed-rows `xr` and transposed parameter blocks. -/
theorem pay17_apply (dc ra : FVec Ideal S128x1 .f32) (A : FVec Ideal S128x128 .bf16) (x xr : FVec Ideal S128x128 .f32)
    (wb wa : Vec Ideal S128x128 .f32) (ba bb : Vec Ideal S128 .f32) (k e : Fin 128) :
    k0_pay17 dc ra A x xr wb wa ba bb (ix2 k e)
      = Ideal.tanh (((((∑ d, x (ix2 k d) * wa (ix2 d e)) + ba (ix1 e))
          + Ideal.div (∑ j, A (ix2 k j) * (∑ d, xr (ix2 j d) * wb (ix2 d e))) (dc (ix2 k (0 : Fin 1))))
          + (ra (ix2 k (0 : Fin 1)) * 128) * bb (ix1 e))
          + x (ix2 k e)) := by
  unfold k0_pay17
  simp only [tanhv_apply, addf_apply, divf_apply, mulf_apply, mm_apply, truncf_apply, rowBcast_apply, colBcast_apply,
    broadcast_apply, shapeCast_self, Ideal.ofBits_def, ofBits_128_f32]

/-- The second layer's neighbour sum at `(k, e)`: the adjacency times (new state ⊙ summed rows) times the block `wb2`. -/
theorem pay18_apply (rs : FVec Ideal S128x128 .f32) (dc ra : FVec Ideal S128x1 .f32) (A : FVec Ideal S128x128 .bf16)
    (x xr : FVec Ideal S128x128 .f32) (wb wa : Vec Ideal S128x128 .f32) (ba bb : Vec Ideal S128 .f32)
    (wb2 : Vec Ideal S128x128 .f32) (k e : Fin 128) :
    k0_pay18 rs dc ra A x xr wb wa ba bb wb2 (ix2 k e)
      = ∑ j, A (ix2 k j) * (∑ d, (k0_pay17 dc ra A x xr wb wa ba bb (ix2 j d) * rs (ix2 j d)) * wb2 (ix2 d e)) := by
  unfold k0_pay18
  simp only [mulf_apply, mm_apply, truncf_apply, shapeCast_self]

/-- The second layer's linear part at `(k, e)`: the new state times the block `wa2`. -/
theorem pay19_apply (dc ra : FVec Ideal S128x1 .f32) (A : FVec Ideal S128x128 .bf16)
    (x xr : FVec Ideal S128x128 .f32) (wb wa : Vec Ideal S128x128 .f32) (ba bb : Vec Ideal S128 .f32)
    (wa2 : Vec Ideal S128x128 .f32) (k e : Fin 128) :
    k0_pay19 dc ra A x xr wb wa ba bb wa2 (ix2 k e)
      = ∑ d, k0_pay17 dc ra A x xr wb wa ba bb (ix2 k d) * wa2 (ix2 d e) := by
  unfold k0_pay19
  simp only [mm_apply, truncf_apply, shapeCast_self]

/-- The second layer's new state, stored with a leading unit axis, at `(0, k, e)`: from its linear part `lin`, its
    neighbour sum `agy` and the state `s` it started from. -/
theorem pay1_apply (dc ra : FVec Ideal S128x1 .f32) (s agy lin : FVec Ideal S128x128 .f32) (ba2 bb2 : Vec Ideal S128 .f32)
    (k e : Fin 128) :
    k0_pay1 dc ra s agy lin ba2 bb2 (ix3 (0 : Fin 1) k e)
      = Ideal.tanh ((((lin (ix2 k e) + ba2 (ix1 e))
          + Ideal.div (agy (ix2 k e)) (dc (ix2 k (0 : Fin 1))))
          + (ra (ix2 k (0 : Fin 1)) * 128) * bb2 (ix1 e))
          + s (ix2 k e)) := by
  unfold k0_pay1
  refine (shapeCast_ab_1ab_apply _ _ (0 : Fin 1) k e).trans ?_
  simp only [tanhv_apply, addf_apply, divf_apply, mulf_apply, rowBcast_apply, colBcast_apply,
    broadcast_apply, Ideal.ofBits_def, ofBits_128_f32]

/-! ## The two layers assembled -/

/-- The body's first layer, on the initial state, is the first arrangement's layer over the adjacency of the relation
    block, the transposed parameter blocks read as weights. -/
theorem layer1_apply (x0 : Vec Ideal S1x128x128 .i32) (rs : FVec Ideal S128x128 .f32) (x2 x4 : Vec Ideal S128x128 .f32)
    (x5 : Vec Ideal S128 .f32) (x6 : Vec Ideal S128x128 .f32) (x7 : Vec Ideal S128 .f32)
    (T : Fin 512 → Fin 128 → EReal) (rr : Fin 128 → Fin 128 → Fin 512)
    (hrs : ∀ j d : Fin 128, rs (ix2 j d) = relsum T rr j d) (k e : Fin 128) :
    k0_pay17 (k0_pay12 (F := Ideal) (k0_pay3 x0)) (k0_pay13 (F := Ideal) (k0_pay3 x0)) (k0_pay14 (F := Ideal) (k0_pay3 x0))
        (k0_pay15 x2) (mulf (k0_pay15 x2) rs) x6 x4 x5 x7 (ix2 k e)
      = layerK T rr (fun k j => adjOf (x0 (ix3 (0 : Fin 1) k j))) (fun j d => x2 (ix2 j d))
          (fun e d => x4 (ix2 d e)) (fun e => x5 (ix1 e)) (fun e d => x6 (ix2 d e)) (fun e => x7 (ix1 e)) k e := by
  rw [pay17_apply]
  simp only [pay12_apply, pay13_apply, pay14_apply, pay15_eq, mulf_apply, pay3_apply, hrs]
  rfl

/-- THE STATE AFTER TWO LAYERS: at `(0, k, e)` the body's state is the first arrangement's two layers over the adjacency
    of the relation block, the initial state and the transposed parameter blocks, given that the summed-rows block is
    the sum of table rows. -/
theorem stateK_apply (x0 : Vec Ideal S1x128x128 .i32) (rs : FVec Ideal S128x128 .f32) (x2 x4 : Vec Ideal S128x128 .f32)
    (x5 : Vec Ideal S128 .f32) (x6 : Vec Ideal S128x128 .f32) (x7 : Vec Ideal S128 .f32) (x8 : Vec Ideal S128x128 .f32)
    (x9 : Vec Ideal S128 .f32) (x10 : Vec Ideal S128x128 .f32) (x11 : Vec Ideal S128 .f32)
    (T : Fin 512 → Fin 128 → EReal) (rr : Fin 128 → Fin 128 → Fin 512)
    (hrs : ∀ j d : Fin 128, rs (ix2 j d) = relsum T rr j d) (k e : Fin 128) :
    stateK x0 rs x2 x4 x5 x6 x7 x8 x9 x10 x11 (ix3 (0 : Fin 1) k e)
      = twoK T rr (fun k j => adjOf (x0 (ix3 (0 : Fin 1) k j))) (fun j d => x2 (ix2 j d))
          (fun e d => x4 (ix2 d e)) (fun e => x5 (ix1 e)) (fun e d => x6 (ix2 d e)) (fun e => x7 (ix1 e))
          (fun e d => x8 (ix2 d e)) (fun e => x9 (ix1 e)) (fun e d => x10 (ix2 d e)) (fun e => x11 (ix1 e)) k e := by
  unfold stateK twoK
  rw [pay1_apply, pay19_apply, pay18_apply]
  simp only [layer1_apply x0 rs x2 x4 x5 x6 x7 T rr hrs, pay12_apply, pay13_apply, pay14_apply, pay3_apply, hrs]
  rfl

end Cert.Gcn

end
-- ==== Proof.KFinal.lean ====
/-
  The output array after the kernel's run, as one function of the argument arrays.

  Grid point t works on batch member t: its relation and feature blocks are member t's, its output block is member t's
  [128, 2176] rows, and the table, the initial state, the transposed weights and the biases are whole at every point.
  What the point writes back is therefore the result function of the arguments, restricted to member t; the sixteen
  blocks tile the output array, so after the run the array holds that function everywhere.
-/
import proofs.«406823_j32375463477528_3_alg».proof.Proof.Gen.KernelIdeal.Value
import proofs.«406823_j32375463477528_3_alg».proof.Proof.Spec
import proofs.«406823_j32375463477528_3_alg».proof.Proof.KDefs
import proofs.«406823_j32375463477528_3_alg».proof.Proof.KHost
import proofs.«406823_j32375463477528_3_alg».proof.Proof.KBlock
import proofs.«406823_j32375463477528_3_alg».proof.Proof.KRadix
import proofs.«406823_j32375463477528_3_alg».proof.Proof.KLayer
import Idealize.ShloMosaic.Lib.Pipeline.Value
import Idealize.ShloMosaic.Lib.ValueIdx

set_option maxRecDepth 16384

noncomputable section

namespace Cert.Gcn

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The input blocks at a point, at their literal types -/

abbrev blk0 (c : Dev nD) (t : Fin cfg0.N) : Vec Ideal S1x128x128 .i32 := iblk m c 0 t
abbrev blk1 (c : Dev nD) (t : Fin cfg0.N) : Vec Ideal S512x128 .f32 := iblk m c 1 t
abbrev blk2 (c : Dev nD) (t : Fin cfg0.N) : Vec Ideal S128x128 .f32 := iblk m c 2 t
abbrev blk3 (c : Dev nD) (t : Fin cfg0.N) : Vec Ideal S1x128x2048 .f32 := iblk m c 3 t
abbrev blk4 (c : Dev nD) (t : Fin cfg0.N) : Vec Ideal S128x128 .f32 := iblk m c 4 t
abbrev blk5 (c : Dev nD) (t : Fin cfg0.N) : Vec Ideal S128 .f32 := iblk m c 5 t
abbrev blk6 (c : Dev nD) (t : Fin cfg0.N) : Vec Ideal S128x128 .f32 := iblk m c 6 t
abbrev blk7 (c : Dev nD) (t : Fin cfg0.N) : Vec Ideal S128 .f32 := iblk m c 7 t
abbrev blk8 (c : Dev nD) (t : Fin cfg0.N) : Vec Ideal S128x128 .f32 := iblk m c 8 t
abbrev blk9 (c : Dev nD) (t : Fin cfg0.N) : Vec Ideal S128 .f32 := iblk m c 9 t
abbrev blk10 (c : Dev nD) (t : Fin cfg0.N) : Vec Ideal S128x128 .f32 := iblk m c 10 t
abbrev blk11 (c : Dev nD) (t : Fin cfg0.N) : Vec Ideal S128 .f32 := iblk m c 11 t

/-- The printed index maps, decided over the sixteen grid points: the relation, feature and output windows move along the
    batch axis with the point; every other window stays at block 0. -/
theorem idx_facts : ∀ t : Fin cfg0.N,
    (win0_0.index t (0 : Fin 3) = t.val ∧ win0_0.index t (1 : Fin 3) = 0 ∧ win0_0.index t (2 : Fin 3) = 0)
    ∧ (win0_3.index t (0 : Fin 3) = t.val ∧ win0_3.index t (1 : Fin 3) = 0 ∧ win0_3.index t (2 : Fin 3) = 0)
    ∧ (win0_12.index t (0 : Fin 3) = t.val ∧ win0_12.index t (1 : Fin 3) = 0 ∧ win0_12.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_4.index t (0 : Fin 2) = 0 ∧ win0_4.index t (1 : Fin 2) = 0)
    ∧ (win0_6.index t (0 : Fin 2) = 0 ∧ win0_6.index t (1 : Fin 2) = 0)
    ∧ (win0_8.index t (0 : Fin 2) = 0 ∧ win0_8.index t (1 : Fin 2) = 0)
    ∧ (win0_10.index t (0 : Fin 2) = 0 ∧ win0_10.index t (1 : Fin 2) = 0)
    ∧ win0_5.index t (0 : Fin 1) = 0 ∧ win0_7.index t (0 : Fin 1) = 0 ∧ win0_9.index t (0 : Fin 1) = 0 ∧ win0_11.index t (0 : Fin 1) = 0 :=
  (by decide +kernel : ∀ t : Fin grid0.N, _)

/-- The batch member a grid point works on. -/
abbrev memberOf (t : Fin cfg0.N) : Fin 16 := ⟨t.val, t.isLt⟩

/-- The relation block at point t holds the clamped words of batch member t. -/
theorem blk0_apply (c : Dev nD) (t : Fin cfg0.N) (i j : Fin 128) :
    blk0 m c t (ix3 (0 : Fin 1) i j) = clipW (m ((c : Thread nD τ).loc main_arg1) (ix3 (memberOf t) i j)) := by
  obtain ⟨⟨e0, e1, e2⟩, -⟩ := idx_facts t
  show V m c main_v0 (((cfg0.win 0).blk t).view.emb (ix3 (0 : Fin 1) i j)) = _
  rw [V_rels]
  refine congrArg (fun z => clipW (m ((c : Thread nD τ).loc main_arg1) z)) (funext fun a => Fin.ext ?_)
  match a with
  | ⟨0, _⟩ => show win0_0.index t (0 : Fin 3) * 1 + 1 * 0 = t.val; omega
  | ⟨1, _⟩ => show win0_0.index t (1 : Fin 3) * 128 + 1 * i.val = i.val; omega
  | ⟨2, _⟩ => show win0_0.index t (2 : Fin 3) * 128 + 1 * j.val = j.val; omega

/-- The table block is the whole table. -/
theorem blk1_apply (c : Dev nD) (t : Fin cfg0.N) (a : Fin 512) (d : Fin 128) :
    blk1 m c t (ix2 a d) = m ((c : Thread nD τ).loc main_arg3) (ix2 a d) := by
  obtain ⟨-, -, -, ⟨e0, e1⟩, -⟩ := idx_facts t
  show V m c main_arg3 (((cfg0.win 1).blk t).view.emb (ix2 a d)) = _
  rw [V_main_arg3]
  refine congrArg (m ((c : Thread nD τ).loc main_arg3)) (funext fun b => Fin.ext ?_)
  match b with
  | ⟨0, _⟩ => show win0_1.index t (0 : Fin 2) * 512 + 1 * a.val = a.val; omega
  | ⟨1, _⟩ => show win0_1.index t (1 : Fin 2) * 128 + 1 * d.val = d.val; omega

/-- The initial-state block is rows 0 … 127 of the name table. -/
theorem blk2_apply (c : Dev nD) (t : Fin cfg0.N) (p q : Fin 128) :
    blk2 m c t (ix2 p q) = m ((c : Thread nD τ).loc main_arg2) (ix2 (⟨p.val, by have := p.isLt; omega⟩ : Fin 2000) q) := by
  obtain ⟨-, -, -, -, ⟨e0, e1⟩, -, -, -, -, -⟩ := idx_facts t
  show V m c main_v1 (((cfg0.win 2).blk t).view.emb (ix2 p q)) = _
  rw [V_name]
  have hi : (((cfg0.win 2).blk t).view.emb (ix2 p q) : S128x128.Idx) = ix2 p q := by
    funext b; apply Fin.ext
    match b with
    | ⟨0, _⟩ => show win0_2.index t (0 : Fin 2) * 128 + 1 * p.val = p.val; omega
    | ⟨1, _⟩ => show win0_2.index t (1 : Fin 2) * 128 + 1 * q.val = q.val; omega
  rw [hi, name_apply]

/-- Weight block 4 is the first weight transposed. -/
theorem blk4_apply (c : Dev nD) (t : Fin cfg0.N) (p q : Fin 128) :
    blk4 m c t (ix2 p q) = m ((c : Thread nD τ).loc main_arg4) (ix2 q p) := by
  obtain ⟨-, -, -, -, -, ⟨e0, e1⟩, -, -, -, -⟩ := idx_facts t
  show V m c main_v2 (((cfg0.win 4).blk t).view.emb (ix2 p q)) = _
  rw [V_w0]
  have hi : (((cfg0.win 4).blk t).view.emb (ix2 p q) : S128x128.Idx) = ix2 p q := by
    funext b; apply Fin.ext
    match b with
    | ⟨0, _⟩ => show win0_4.index t (0 : Fin 2) * 128 + 1 * p.val = p.val; omega
    | ⟨1, _⟩ => show win0_4.index t (1 : Fin 2) * 128 + 1 * q.val = q.val; omega
  rw [hi, transpose_apply2]

/-- Weight block 6 is the second weight transposed. -/
theorem blk6_apply (c : Dev nD) (t : Fin cfg0.N) (p q : Fin 128) :
    blk6 m c t (ix2 p q) = m ((c : Thread nD τ).loc main_arg6) (ix2 q p) := by
  obtain ⟨-, -, -, -, -, -, ⟨e0, e1⟩, -, -, -⟩ := idx_facts t
  show V m c main_v3 (((cfg0.win 6).blk t).view.emb (ix2 p q)) = _
  rw [V_w1]
  have hi : (((cfg0.win 6).blk t).view.emb (ix2 p q) : S128x128.Idx) = ix2 p q := by
    funext b; apply Fin.ext
    match b with
    | ⟨0, _⟩ => show win0_6.index t (0 : Fin 2) * 128 + 1 * p.val = p.val; omega
    | ⟨1, _⟩ => show win0_6.index t (1 : Fin 2) * 128 + 1 * q.val = q.val; omega
  rw [hi, transpose_apply2]

/-- Weight block 8 is the third weight transposed. -/
theorem blk8_apply (c : Dev nD) (t : Fin cfg0.N) (p q : Fin 128) :
    blk8 m c t (ix2 p q) = m ((c : Thread nD τ).loc main_arg8) (ix2 q p) := by
  obtain ⟨-, -, -, -, -, -, -, ⟨e0, e1⟩, -, -⟩ := idx_facts t
  show V m c main_v4 (((cfg0.win 8).blk t).view.emb (ix2 p q)) = _
  rw [V_w2]
  have hi : (((cfg0.win 8).blk t).view.emb (ix2 p q) : S128x128.Idx) = ix2 p q := by
    funext b; apply Fin.ext
    match b with
    | ⟨0, _⟩ => show win0_8.index t (0 : Fin 2) * 128 + 1 * p.val = p.val; omega
    | ⟨1, _⟩ => show win0_8.index t (1 : Fin 2) * 128 + 1 * q.val = q.val; omega
  rw [hi, transpose_apply2]

/-- Weight block 10 is the fourth weight transposed. -/
theorem blk10_apply (c : Dev nD) (t : Fin cfg0.N) (p q : Fin 128) :
    blk10 m c t (ix2 p q) = m ((c : Thread nD τ).loc main_arg10) (ix2 q p) := by
  obtain ⟨-, -, -, -, -, -, -, -, ⟨e0, e1⟩, -⟩ := idx_facts t
  show V m c main_v5 (((cfg0.win 10).blk t).view.emb (ix2 p q)) = _
  rw [V_w3]
  have hi : (((cfg0.win 10).blk t).view.emb (ix2 p q) : S128x128.Idx) = ix2 p q := by
    funext b; apply Fin.ext
    match b with
    | ⟨0, _⟩ => show win0_10.index t (0 : Fin 2) * 128 + 1 * p.val = p.val; omega
    | ⟨1, _⟩ => show win0_10.index t (1 : Fin 2) * 128 + 1 * q.val = q.val; omega
  rw [hi, transpose_apply2]

/-- Bias block 5 is the whole bias vector. -/
theorem blk5_apply (c : Dev nD) (t : Fin cfg0.N) (e : Fin 128) :
    blk5 m c t (ix1 e) = m ((c : Thread nD τ).loc main_arg5) (ix1 e) := by
  obtain ⟨-, -, -, -, -, -, -, -, -, e0, -, -, -⟩ := idx_facts t
  show V m c main_arg5 (((cfg0.win 5).blk t).view.emb (ix1 e)) = _
  rw [V_main_arg5]
  refine congrArg (m ((c : Thread nD τ).loc main_arg5)) (funext fun b => Fin.ext ?_)
  match b with
  | ⟨0, _⟩ => show win0_5.index t (0 : Fin 1) * 128 + 1 * e.val = e.val; omega

/-- Bias block 7 is the whole bias vector. -/
theorem blk7_apply (c : Dev nD) (t : Fin cfg0.N) (e : Fin 128) :
    blk7 m c t (ix1 e) = m ((c : Thread nD τ).loc main_arg7) (ix1 e) := by
  obtain ⟨-, -, -, -, -, -, -, -, -, -, e0, -, -⟩ := idx_facts t
  show V m c main_arg7 (((cfg0.win 7).blk t).view.emb (ix1 e)) = _
  rw [V_main_arg7]
  refine congrArg (m ((c : Thread nD τ).loc main_arg7)) (funext fun b => Fin.ext ?_)
  match b with
  | ⟨0, _⟩ => show win0_7.index t (0 : Fin 1) * 128 + 1 * e.val = e.val; omega

/-- Bias block 9 is the whole bias vector. -/
theorem blk9_apply (c : Dev nD) (t : Fin cfg0.N) (e : Fin 128) :
    blk9 m c t (ix1 e) = m ((c : Thread nD τ).loc main_arg9) (ix1 e) := by
  obtain ⟨-, -, -, -, -, -, -, -, -, -, -, e0, -⟩ := idx_facts t
  show V m c main_arg9 (((cfg0.win 9).blk t).view.emb (ix1 e)) = _
  rw [V_main_arg9]
  refine congrArg (m ((c : Thread nD τ).loc main_arg9)) (funext fun b => Fin.ext ?_)
  match b with
  | ⟨0, _⟩ => show win0_9.index t (0 : Fin 1) * 128 + 1 * e.val = e.val; omega

/-- Bias block 11 is the whole bias vector. -/
theorem blk11_apply (c : Dev nD) (t : Fin cfg0.N) (e : Fin 128) :
    blk11 m c t (ix1 e) = m ((c : Thread nD τ).loc main_arg11) (ix1 e) := by
  obtain ⟨-, -, -, -, -, -, -, -, -, -, -, -, e0⟩ := idx_facts t
  show V m c main_arg11 (((cfg0.win 11).blk t).view.emb (ix1 e)) = _
  rw [V_main_arg11]
  refine congrArg (m ((c : Thread nD τ).loc main_arg11)) (funext fun b => Fin.ext ?_)
  match b with
  | ⟨0, _⟩ => show win0_11.index t (0 : Fin 1) * 128 + 1 * e.val = e.val; omega

/-- The feature block at point t holds batch member t's features. -/
theorem blk3_apply (c : Dev nD) (t : Fin cfg0.N) (k : Fin 128) (f : Fin 2048) :
    blk3 m c t (ix3 (0 : Fin 1) k f) = m ((c : Thread nD τ).loc main_arg0) (ix3 (memberOf t) k f) := by
  obtain ⟨-, ⟨e0, e1, e2⟩, -⟩ := idx_facts t
  show V m c main_arg0 (((cfg0.win 3).blk t).view.emb (ix3 (0 : Fin 1) k f)) = _
  rw [V_main_arg0]
  refine congrArg (m ((c : Thread nD τ).loc main_arg0)) (funext fun a => Fin.ext ?_)
  match a with
  | ⟨0, _⟩ => show win0_3.index t (0 : Fin 3) * 1 + 1 * 0 = t.val; omega
  | ⟨1, _⟩ => show win0_3.index t (1 : Fin 3) * 128 + 1 * k.val = k.val; omega
  | ⟨2, _⟩ => show win0_3.index t (2 : Fin 3) * 2048 + 1 * f.val = f.val; omega

/-! ## The result as a function of the arguments -/

/-- The two-layer state of batch member b, as the kernel arranges it, from the argument arrays. -/
def stateOf (c : Dev nD) (b : Fin 16) : Mat :=
  twoK (fun a d => m ((c : Thread nD τ).loc main_arg3) (ix2 a d))
    (fun i j => rowOf (clipW (m ((c : Thread nD τ).loc main_arg1) (ix3 b i j)))) (fun k j => adjOf (clipW (m ((c : Thread nD τ).loc main_arg1) (ix3 b k j))))
    (fun j d => m ((c : Thread nD τ).loc main_arg2) (ix2 (⟨j.val, by have := j.isLt; omega⟩ : Fin 2000) d))
    (fun e d => m ((c : Thread nD τ).loc main_arg4) (ix2 e d)) (fun e => m ((c : Thread nD τ).loc main_arg5) (ix1 e)) (fun e d => m ((c : Thread nD τ).loc main_arg6) (ix2 e d)) (fun e => m ((c : Thread nD τ).loc main_arg7) (ix1 e))
    (fun e d => m ((c : Thread nD τ).loc main_arg8) (ix2 e d)) (fun e => m ((c : Thread nD τ).loc main_arg9) (ix1 e)) (fun e d => m ((c : Thread nD τ).loc main_arg10) (ix2 e d)) (fun e => m ((c : Thread nD τ).loc main_arg11) (ix1 e))

/-- The output array the kernel ends with, as a function of the argument arrays. -/
def Gk (c : Dev nD) : S16x128x2176.Idx → EReal := fun y =>
  result (stateOf m c) (fun b k f => m ((c : Thread nD τ).loc main_arg0) (ix3 b k f)) (y 0) (y 1) (y 2)

/-- The state a point computes from its blocks is batch member t's state. -/
theorem state_at (c : Dev nD) (t : Fin cfg0.N) (k e : Fin 128) :
    stateK (blk0 m c t) (relsumK (blk0 m c t) (tslices (blk1 m c t))) (blk2 m c t) (blk4 m c t) (blk5 m c t) (blk6 m c t)
        (blk7 m c t) (blk8 m c t) (blk9 m c t) (blk10 m c t) (blk11 m c t) (ix3 (0 : Fin 1) k e)
      = stateOf m c (memberOf t) k e := by
  have hs : ∀ (h : Fin 16) (l : Fin 32) (d : Fin 128), tslices (blk1 m c t) h (ix2 l d)
      = (fun a d => m ((c : Thread nD τ).loc main_arg3) (ix2 a d)) ⟨32 * h.val + l.val, by have := h.isLt; have := l.isLt; omega⟩ d := by
    intro h l d; rw [tslices_apply, blk1_apply]
  have hr : ∀ i j : Fin 128, (blk0 m c t (ix3 (0 : Fin 1) i j)).toNat < 512 := by
    intro i j; rw [blk0_apply]; exact clipW_lt _
  rw [stateK_apply (blk0 m c t) _ (blk2 m c t) (blk4 m c t) (blk5 m c t) (blk6 m c t) (blk7 m c t) (blk8 m c t) (blk9 m c t)
    (blk10 m c t) (blk11 m c t) (fun a d => m ((c : Thread nD τ).loc main_arg3) (ix2 a d)) (fun i j => rowOf (blk0 m c t (ix3 (0 : Fin 1) i j)))
    (fun j d => relsumK_apply (blk0 m c t) (tslices (blk1 m c t)) _ hs hr j d) k e]
  unfold stateOf
  simp only [blk0_apply, blk2_apply, blk4_apply, blk5_apply, blk6_apply, blk7_apply, blk8_apply, blk9_apply, blk10_apply,
    blk11_apply]

/-- WHAT POINT t WRITES BACK is block t of the result function. -/
theorem flushed_eq (c : Dev nD) (t : Fin cfg0.N) :
    (dats m 0 c).flushed 12 t = ((cfg0.win 12).blk t).view.read (Elt Ideal) (Gk m c) := by
  rw [Value.flushed12_A, out_block]
  obtain ⟨-, -, ⟨e0, e1, e2⟩, -⟩ := idx_facts t
  funext y
  show blockK (blk0 m c t) (blk1 m c t) (blk2 m c t) (blk3 m c t) (blk4 m c t) (blk5 m c t) (blk6 m c t) (blk7 m c t)
      (blk8 m c t) (blk9 m c t) (blk10 m c t) (blk11 m c t) y = Gk m c (((cfg0.win 12).blk t).view.emb y)
  have h0 : (y 0).val < 1 := (y 0).isLt
  have hy0 : ((((cfg0.win 12).blk t).view.emb y) 0 : Fin 16) = memberOf t := by
    apply Fin.ext; show win0_12.index t (0 : Fin 3) * 1 + 1 * (y 0).val = t.val; omega
  have hy1 : ((((cfg0.win 12).blk t).view.emb y) 1 : Fin 128) = y 1 := by
    apply Fin.ext; show win0_12.index t (1 : Fin 3) * 128 + 1 * (y 1).val = (y 1).val; omega
  have hy2 : ((((cfg0.win 12).blk t).view.emb y) 2 : Fin 2176) = y 2 := by
    apply Fin.ext; show win0_12.index t (2 : Fin 3) * 2176 + 1 * (y 2).val = (y 2).val; omega
  unfold Gk blockK result
  rw [hy0, hy1, hy2]
  by_cases h : (y 2).val < 128
  · rw [dif_pos h, dif_pos h]; exact state_at m c t (y 1) ⟨(y 2).val, h⟩
  · rw [dif_neg h, dif_neg h]; exact blk3_apply m c t (y 1) _

/-- An index of the array is in point t's block iff each coordinate is in the block's range on its axis. -/
theorem mem_blk (t : Fin cfg0.N) (i : S16x128x2176.Idx) :
    i ∈ ((cfg0.win 12).blk t).view.set ↔ ∀ a : Fin 3, win0_12.index t a * S1x128x2176.size a ≤ (i a).val
      ∧ (i a).val < win0_12.index t a * S1x128x2176.size a + S1x128x2176.size a := by
  show i ∈ ((View.whole main_v6).slice (win0_12.rect t)).set ↔ _
  rw [View.set_slice_whole, Rect.mem_set_unit]
  exact Iff.rfl

/-- Every index of the output array is in the block of the point its batch coordinate names. -/
theorem cover (i : S16x128x2176.Idx) : ∃ t : Fin cfg0.N, (cfg0.win 12).flush t = true ∧ i ∈ ((cfg0.win 12).blk t).view.set := by
  have hi0 : (i 0).val < 16 := (i 0).isLt
  have hi1 : (i 1).val < 128 := (i 1).isLt
  have hi2 : (i 2).val < 2176 := (i 2).isLt
  refine ⟨⟨(i 0).val, hi0⟩, flush0_12 _, ?_⟩
  obtain ⟨-, -, ⟨e0, e1, e2⟩, -⟩ := idx_facts ⟨(i 0).val, hi0⟩
  rw [mem_blk]
  intro a
  match a with
  | ⟨0, _⟩ => show win0_12.index _ (0 : Fin 3) * 1 ≤ (i 0).val ∧ (i 0).val < win0_12.index _ (0 : Fin 3) * 1 + 1; rw [e0]; show (i 0).val * 1 ≤ (i 0).val ∧ (i 0).val < (i 0).val * 1 + 1; omega
  | ⟨1, _⟩ => show win0_12.index _ (1 : Fin 3) * 128 ≤ (i 1).val ∧ (i 1).val < win0_12.index _ (1 : Fin 3) * 128 + 128; omega
  | ⟨2, _⟩ => show win0_12.index _ (2 : Fin 3) * 2176 ≤ (i 2).val ∧ (i 2).val < win0_12.index _ (2 : Fin 3) * 2176 + 2176; omega

/-- THE ARRAY after the run: the result function of the arguments. -/
theorem final (c : Dev nD) : (dats m 0 c).arrAt 12 cfg0.N = Gk m c :=
  (dats m 0 c).arrAt_eq_of_cover 12 (Gk m c) (fun t _ => flushed_eq m c t) cover

/-- The kernel's run, read: the output array at the result function of the arguments, the arguments unchanged. -/
theorem run : θ_run defs (onTc (τ := τ) (main (F := Ideal))) ⟨m, fun _ => 0, ρ⟩ fun r => ∀ c : Dev nD,
      r.2.mem ((c : Thread nD τ).loc main_v6) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.Gcn

end
-- ==== Proof.RefPrelude.lean ====
/-
  The reference's result array, read stage by stage at coordinates.

  The reference keeps the first 128 rows of the name table as every batch member's initial state, reads for each pair
  (i, j) the table row its relation word names (a negative word raised by 512 first, the start index then clamped into
  the table), marks the pairs with a positive word adjacent, and divides by the number of neighbours (1 where there is
  none). A layer multiplies object j's state into the table row of every pair (i, j), sends it through the second
  weight and bias, sums the messages over i, then over the neighbours j of object k, divides, adds the state through
  the first weight and bias and the state itself, and takes the hyperbolic tangent. Two layers, then the features are
  appended: the result function of Spec.lean in its pair-by-pair arrangement.
-/
import proofs.«406823_j32375463477528_3_alg».proof.Proof.RefRead
import proofs.«406823_j32375463477528_3_alg».proof.Proof.Spec
import Idealize.ShloMosaic.Lib.ValueIdx
import Idealize.ShloMosaic.Lib.Pipeline.Value
import Idealize.ShloMosaic.PureOps.Ideal.Laws

noncomputable section

open scoped BigOperators

namespace Cert.Gcn

open Cert.ReferenceIdeal Cert.ReferenceIdeal.ReadP Idealize.ShloMosaic Idealize.ShloMosaic.ValueIdx

/-- The float word `0x3F800000` is the real number one. -/
theorem ofBits_one_f32 : Ideal.ofBits .f32 0x3F800000#32 = 1 := by
  simp [Ideal.ofBits, Ideal.ieee, -EReal.coe_mul]; norm_num

/-- Raising a negative word by 512: the select on the signed comparison with zero is the `if` on the sign. -/
theorem wrap_word (w : BitVec 32) :
    Scalar.select (IntOp.cmpi .slt w 0#32) (IntOp.addi w 512#32) w = (if w.toInt < 0 then w + 512#32 else w) := by
  unfold Scalar.select IntOp.cmpi IntOp.addi
  by_cases h : w.toInt < 0
  · simp [BitVec.slt, h]
  · simp [BitVec.slt, h]

/-- The one-bit signed comparison `0 < w`, converted to a float, is the adjacency of the word. -/
theorem adj_word (w : BitVec 32) :
    FloatOps.uitofp (F := Ideal) .f32 (IntOp.cmpi .sgt w 0#32) = adjOf w := by
  show (((IntOp.cmpi .sgt w 0#32).toNat : ℝ) : EReal) = adjOf w
  unfold IntOp.cmpi adjOf
  by_cases h : 0 < w.toInt
  · simp [BitVec.slt, h]
  · simp [BitVec.slt, h]

/-- The gather of table rows read at (b, i, j, d): the row `min s 511` of the table, s the start index at (b, i, j)
    read signed (a negative one reads row 0), at column d. -/
theorem gather_rows_apply (x : (⟨S512x128, .f32⟩ : BufTy).Contents (Elt Ideal)) (idx : IVec S16x128x128x1 32)
    (b : Fin 16) (i j d : Fin 128) :
    Host.gather gather_S512x128_S16x128x128x1_S16x128x128x128_3_0_n_n_0_3_1128 x idx (ix4 b i j d)
      = x (ix2 (⟨min (idx (ix4 b i j (0 : Fin 1))).toInt.toNat 511, by omega⟩ : Fin 512) d) := by
  unfold Host.gather
  congr 1
  funext a
  refine Fin.ext ?_
  match a with
  | ⟨0, _⟩ =>
    -- the table's row axis: the clamped start index, no batching and no offset coordinate
    show GatherDims.start _ (ix4 b i j d) idx 0 + GatherDims.batchCoord _ (ix4 b i j d) 0 + GatherDims.offCoord _ (ix4 b i j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x128_S16x128x128x1_S16x128x128x128_3_0_n_n_0_3_1128.startIndexMap from List.mem_singleton.mpr rfl)]
    have hsi : gather_S512x128_S16x128x128x1_S16x128x128x128_3_0_n_n_0_3_1128.siIdx (ix4 b i j d)
        ⟨List.idxOf (0 : Fin 2) gather_S512x128_S16x128x128x1_S16x128x128x128_3_0_n_n_0_3_1128.startIndexMap,
          List.idxOf_lt_length_iff.2 (List.mem_singleton.mpr rfl)⟩ = ix4 b i j (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    -- the table's column axis: no start index and no batching, the offset coordinate d
    show GatherDims.start _ (ix4 b i j d) idx 1 + GatherDims.batchCoord _ (ix4 b i j d) 1 + GatherDims.offCoord _ (ix4 b i j d) 1 = d.val
    rw [GatherDims.batchCoord_eq_zero _ _ _ List.not_mem_nil]
    unfold GatherDims.start
    rw [dif_neg (show (1 : Fin 2) ∉ gather_S512x128_S16x128x128x1_S16x128x128x128_3_0_n_n_0_3_1128.startIndexMap from by decide)]
    simp only [Nat.add_zero, Nat.zero_add]
    rfl

variable (a0 : (⟨S16x128x2048, .f32⟩ : BufTy).Contents (Elt Ideal)) (a1 : (⟨S16x128x128, .i32⟩ : BufTy).Contents (Elt Ideal))
  (a2 : (⟨S2000x128, .f32⟩ : BufTy).Contents (Elt Ideal)) (a3 : (⟨S512x128, .f32⟩ : BufTy).Contents (Elt Ideal))
  (a4 : (⟨S128x128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal))
  (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128, .f32⟩ : BufTy).Contents (Elt Ideal))

/-- The table of relation rows, by row and column. -/
abbrev tab : Fin 512 → Fin 128 → EReal := fun r d => a3 (ix2 r d)
/-- The table row pair (i, j) of batch member b reads. -/
abbrev rrOf (b : Fin 16) : Fin 128 → Fin 128 → Fin 512 := fun i j => rowR (a1 (ix3 b i j))
/-- The adjacency matrix of batch member b. -/
abbrev aaOf (b : Fin 16) : Mat := fun k j => adjOf (a1 (ix3 b k j))
/-- The initial state: the first 128 rows of the embedding table. -/
abbrev x0Of : Mat := fun j d => a2 (ix2 (⟨j.val, by have := j.isLt; omega⟩ : Fin 2000) d)

/-! ## The prelude: the initial state, the table rows, the adjacency and the divisor, read at coordinates -/

theorem v2_at (b : Fin 16) (j d : Fin 128) :
    val_main_v2 (F := Ideal) a2 (ix3 b j d) = x0Of a2 j d := by
  rw [val_main_v2_apply, val_main_v1_apply, val_main_v0_apply]
  congr 1
  funext a
  match a with
  | ⟨0, _⟩ => rfl
  | ⟨1, _⟩ => rfl

/-- The gather's start word at (b, i, j): the relation word, raised by 512 when negative. -/
theorem v8_at (b : Fin 16) (i j : Fin 128) :
    val_main_v8 (F := Ideal) a1 (ix4 b i j (0 : Fin 1))
      = (if (a1 (ix3 b i j)).toInt < 0 then a1 (ix3 b i j) + 512#32 else a1 (ix3 b i j)) := by
  rw [val_main_v8_apply]
  have hi : idx_main_v8 (ix4 b i j (0 : Fin 1)) = ix3 b i j := by
    funext a
    match a with
    | ⟨0, _⟩ => rfl
    | ⟨1, _⟩ => rfl
    | ⟨2, _⟩ => rfl
  rw [hi, val_main_v7_apply, val_main_v4_apply, val_main_v6_apply, val_main_v3_apply, val_main_v5_apply,
    val_main_c_apply, val_main_c_0_apply]
  exact wrap_word _

/-- The table row read for pair (i, j) of batch member b, at feature d. -/
theorem v9_at (b : Fin 16) (i j d : Fin 128) :
    val_main_v9 (F := Ideal) a1 a3 (ix4 b i j d) = tab a3 (rrOf a1 b i j) d := by
  unfold val_main_v9
  rw [gather_rows_apply]
  refine congrArg (fun r : Fin 512 => a3 (ix2 r d)) (Fin.ext ?_)
  show min (val_main_v8 (F := Ideal) a1 (ix4 b i j (0 : Fin 1))).toInt.toNat 511 = _
  rw [v8_at]
  rfl

theorem v12_at (b : Fin 16) (k j : Fin 128) :
    val_main_v12 (F := Ideal) a1 (ix3 b k j) = aaOf a1 b k j := by
  rw [val_main_v12_apply, val_main_v11_apply, val_main_v10_apply, val_main_c_1_apply]
  exact adj_word _

theorem v13_at (b : Fin 16) (k : Fin 128) :
    val_main_v13 (F := Ideal) a1 (ix2 b k) = deg (aaOf a1 b) k := by
  rw [val_main_v13_apply, val_main_cst_apply]
  show Ideal.ofBits .f32 0x00000000#32 + _ = _
  rw [Ideal.ofBits_zero_f32, zero_add]
  unfold deg
  refine Finset.sum_congr rfl (fun j _ => ?_)
  have hi : idx_main_v13 (ix2 b k) j = ix3 b k j := by
    funext a
    match a with
    | ⟨0, _⟩ => rfl
    | ⟨1, _⟩ => rfl
    | ⟨2, _⟩ => rfl
  rw [hi, v12_at]

theorem v16_at (b : Fin 16) (k : Fin 128) :
    val_main_v16 (F := Ideal) a1 (ix2 b k) = degc (aaOf a1 b) k := by
  rw [val_main_v16_apply, val_main_v15_apply, val_main_v14_apply, val_main_cst_2_apply, val_main_call0_v1_apply,
    val_main_call0_v0_apply, val_main_cst_3_apply, v13_at]
  show Scalar.select (Ideal.cmp .oeq (deg (aaOf a1 b) k) (Ideal.ofBits .f32 0x00000000#32)) (Ideal.ofBits .f32 0x3F800000#32) _ = _
  rw [Ideal.ofBits_zero_f32, ofBits_one_f32]
  unfold degc Scalar.select Ideal.cmp
  by_cases h : deg (aaOf a1 b) k = 0
  · simp [h]
  · simp [h]

theorem v17_at (b : Fin 16) (k : Fin 128) :
    val_main_v17 (F := Ideal) a1 (ix3 b k (0 : Fin 1)) = degc (aaOf a1 b) k := by
  rw [val_main_v17_apply]
  have hi : idx_main_v17 (ix3 b k (0 : Fin 1)) = ix2 b k := by
    funext a
    match a with
    | ⟨0, _⟩ => rfl
    | ⟨1, _⟩ => rfl
  rw [hi, v16_at]

end Cert.Gcn

end
-- ==== Proof.RefValue.lean ====
/-
  The reference's result array at an index: in columns 0 … 127 the state after the two layers, in the pair-by-pair
  arrangement; in the later columns the batch member's features, which the final concatenation appends unchanged.
-/
import proofs.«406823_j32375463477528_3_alg».proof.Proof.RefLayer2
import Idealize.ShloMosaic.Lib.Pipeline.Value

noncomputable section

namespace Cert.Gcn

open Cert.ReferenceIdeal Cert.ReferenceIdeal.ReadP Idealize.ShloMosaic Idealize.ShloMosaic.ValueIdx

variable (a0 : (⟨S16x128x2048, .f32⟩ : BufTy).Contents (Elt Ideal)) (a1 : (⟨S16x128x128, .i32⟩ : BufTy).Contents (Elt Ideal))
  (a2 : (⟨S2000x128, .f32⟩ : BufTy).Contents (Elt Ideal)) (a3 : (⟨S512x128, .f32⟩ : BufTy).Contents (Elt Ideal))
  (a4 : (⟨S128x128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal))
  (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128, .f32⟩ : BufTy).Contents (Elt Ideal))

/-- The reference's result at an index: the two-layer state in columns 0 … 127, the features after. -/
theorem ref_value (y : S16x128x2176.Idx) :
    val_main_v54 (F := Ideal) a0 a1 a2 a3 a4 a5 a6 a7 a8 a9 a10 a11 y
      = result (fun b => twoR (fun r d => a3 (ix2 r d)) (fun i j => rowR (a1 (ix3 b i j))) (fun k j => adjOf (a1 (ix3 b k j)))
                 (fun j d => a2 (ix2 (⟨j.val, by have := j.isLt; omega⟩ : Fin 2000) d))
                 (fun e d => a4 (ix2 e d)) (fun e => a5 (ix1 e)) (fun e d => a6 (ix2 e d)) (fun e => a7 (ix1 e))
                 (fun e d => a8 (ix2 e d)) (fun e => a9 (ix1 e)) (fun e d => a10 (ix2 e d)) (fun e => a11 (ix1 e)))
          (fun b k f => a0 (ix3 b k f)) (y 0) (y 1) (y 2) := by
  obtain ⟨b, k, c, rfl⟩ : ∃ (b : Fin 16) (k : Fin 128) (c : Fin 2176), y = ix3 b k c := ⟨y 0, y 1, y 2, eq_ix3 y⟩
  show val_main_v54 (F := Ideal) a0 a1 a2 a3 a4 a5 a6 a7 a8 a9 a10 a11 (ix3 b k c) = result _ _ b k c
  unfold val_main_v54 result
  have h2 : c.val < 2176 := c.isLt
  by_cases h : c.val < 128
  · rw [dif_pos h]
    rw [concatenate_pair_apply_left (s₁ := S16x128x128) (s₂ := S16x128x2048) 2 _ _ _ (ix3 b k c) rfl
      (ix3 b k (⟨c.val, h⟩ : Fin 128) : S16x128x128.Idx) (fun a => by
      match a with
      | ⟨0, _⟩ => rfl
      | ⟨1, _⟩ => rfl
      | ⟨2, _⟩ => rfl)]
    exact (v53_at a1 a2 a3 a4 a5 a6 a7 a8 a9 a10 a11 b k ⟨c.val, h⟩).trans rfl
  · rw [dif_neg h]
    exact concatenate_pair_apply_right (s₁ := S16x128x128) (s₂ := S16x128x2048) 2 _ _ _ (ix3 b k c) rfl rfl
      (ix3 b k (⟨c.val - 128, by omega⟩ : Fin 2048) : S16x128x2048.Idx) (fun a ha => by
      match a with
      | ⟨0, _⟩ => rfl
      | ⟨1, _⟩ => rfl
      | ⟨2, _⟩ => exact absurd rfl ha) (by show c.val - 128 + 128 = c.val; omega)

end Cert.Gcn

end
-- ==== Proof.PreFacts.lean ====
/-
  What the printed precondition says of the twelve inputs, read back at the ideal (extended-real) model:
  every float input has only real entries (none is an infinity or the junk value), and every entry of the
  integer input lies in [0, 512).

  The precondition is a chain of one-bit conjunctions. Each float conjunct is a reduction by "and", over all
  axes, of the array of bits  |x i| < +∞ ; the two integer conjuncts are the same reduction over the bits
  0 ≤ a i  and  a i < 512  (signed compares against a broadcast scalar).
-/
import proofs.«406823_j32375463477528_3_alg».proof.Pre_finite_inputs
import proofs.«406823_j32375463477528_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

namespace Cert.Gcn

open Cert.Pre_finite_inputs Idealize.ShloMosaic Idealize.ShloMosaic.ValueIdx

/-- The scalar shape has exactly one index: an index is a function out of the empty set of axes. -/
instance subsingleton_scalar_idx : Subsingleton S_.Idx := ⟨fun a b => funext fun d => d.elim0⟩

/-- The pattern 0x7F800000 (sign 0, exponent all ones, fraction 0) denotes +∞. -/
theorem inf_pattern : Ideal.ofBits .f32 0x7F800000#32 = (⊤ : EReal) := by
  simp [Ideal.ofBits, Ideal.ieee]

/-- On one value: if the bit "|x| < +∞" is set then x is a real number. At -∞ the absolute value
    max x (-x) is +∞, at +∞ likewise, and +∞ < +∞ fails; a real is its own witness. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

/-- One float conjunct, for an input of any shape: if the "and" over all axes of the bits |x i| < +∞ is 1,
    every entry of x is a real number. -/
theorem entries_real {s : Shape} {axes : List (Fin s.rank)}
    (hb : S_.BroadcastsInDim s (![] : Fin 0 → Fin s.rank)) (hr : s.ReducesTo axes S_) (h0 : 0 < S_.numel)
    (x : FVec Ideal s .f32) (j : S_.Idx)
    (h : Host.reduce IntOp.andi
          (cmpf .olt (Host.absf x) (broadcastInDim s ![] hb (constant S_ .f32 0x7F800000#32)))
          (constantI S_ 1 1#1) hr h0 j = 1#1) :
    ∀ i, ∃ r : ℝ, x i = (r : EReal) := by
  intro i
  -- the reduction being 1, the bit at index i is 1; that bit is the scalar compare of |x i| with +∞
  have hi := Host.reduce_andi_all _ _ hr h0 j h i
  exact real_of_abs_lt_inf (x i) hi

/-- The two integer conjuncts: if the "and" over all axes of the bits 0 ≤ a i (signed) is 1, and likewise of
    the bits a i < 512, then every entry of a, read as a signed integer, lies in [0, 512). -/
theorem entries_in_range {s : Shape} {axes : List (Fin s.rank)}
    (hb : S_.BroadcastsInDim s (![] : Fin 0 → Fin s.rank)) (hr : s.ReducesTo axes S_) (h0 : 0 < S_.numel)
    (a : IVec s 32) (j : S_.Idx)
    (hge : Host.reduce IntOp.andi
          (cmpi .sge a (broadcastInDim s ![] hb (constantI S_ 32 0#32))) (constantI S_ 1 1#1) hr h0 j = 1#1)
    (hlt : Host.reduce IntOp.andi
          (cmpi .slt a (broadcastInDim s ![] hb (constantI S_ 32 512#32))) (constantI S_ 1 1#1) hr h0 j = 1#1) :
    ∀ i, 0 ≤ (a i).toInt ∧ (a i).toInt < 512 := by
  intro i
  have h1 : IntOp.cmpi .sge (a i) 0#32 = 1#1 := Host.reduce_andi_all _ _ hr h0 j hge i
  have h2 : IntOp.cmpi .slt (a i) 512#32 = 1#1 := Host.reduce_andi_all _ _ hr h0 j hlt i
  rw [IntOp.cmpi_sge] at h1
  rw [IntOp.cmpi_slt] at h2
  have z : (0#32 : BitVec 32).toInt = 0 := by decide
  have c : (512#32 : BitVec 32).toInt = 512 := by decide
  rw [z] at h1
  rw [c] at h2
  exact ⟨h1, h2⟩

/-- The precondition, read back: every float input is real entrywise, and the integer input's entries lie
    in [0, 512). The precondition's one bit is a left-nested conjunction of thirteen conjuncts: eleven float
    ones (inputs 0, 2, 3, …, 11 in that order) and then the two integer ones. -/
theorem pre_facts [Cert.Pre_finite_inputs.Facts]
    (a0 : FVec Ideal S16x128x2048 .f32) (a1 : IVec S16x128x128 32) (a2 : FVec Ideal S2000x128 .f32)
    (a3 : FVec Ideal S512x128 .f32) (a4 : FVec Ideal S128x128 .f32) (a5 : FVec Ideal S128 .f32)
    (a6 : FVec Ideal S128x128 .f32) (a7 : FVec Ideal S128 .f32) (a8 : FVec Ideal S128x128 .f32)
    (a9 : FVec Ideal S128 .f32) (a10 : FVec Ideal S128x128 .f32) (a11 : FVec Ideal S128 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal))
    ∧ (∀ i, ∃ r : ℝ, a10 i = (r : EReal)) ∧ (∀ i, ∃ r : ℝ, a11 i = (r : EReal))
    ∧ (∀ i, 0 ≤ (a1 i).toInt ∧ (a1 i).toInt < 512) := by
  -- the one bit of the result, at the one scalar index
  have h0 := congrFun h ix0
  dsimp only [fn, fn_part1, fn_part2, fn_part3, andi] at h0
  -- a one-bit "and" is 1 exactly when both sides are
  simp only [IntOp.andi_eq_one] at h0
  obtain ⟨⟨⟨⟨⟨⟨⟨⟨⟨⟨⟨⟨c0, c2⟩, c3⟩, c4⟩, c5⟩, c6⟩, c7⟩, c8⟩, c9⟩, c10⟩, c11⟩, cge⟩, clt⟩ := h0
  exact ⟨entries_real _ _ _ a0 ix0 c0, entries_real _ _ _ a2 ix0 c2, entries_real _ _ _ a3 ix0 c3,
    entries_real _ _ _ a4 ix0 c4, entries_real _ _ _ a5 ix0 c5, entries_real _ _ _ a6 ix0 c6,
    entries_real _ _ _ a7 ix0 c7, entries_real _ _ _ a8 ix0 c8, entries_real _ _ _ a9 ix0 c9,
    entries_real _ _ _ a10 ix0 c10, entries_real _ _ _ a11 ix0 c11,
    entries_in_range _ _ _ a1 ix0 cge clt⟩

end Cert.Gcn
-- ==== Proof.Algebra.lean ====
/-
  The two arrangements of the two-layer computation agree on finite data.

  Every entry of the table, the state, the weights and the biases is a real number, and every adjacency is 0 or 1
  (hence real). On reals the operations of a layer are the field operations: a finite sum of reals is the real sum,
  the degree is a real number, the corrected degree (0 replaced by 1) is a nonzero real, and dividing by a nonzero
  real is multiplying by its reciprocal. So each arrangement of a layer is the inclusion of a real-valued layer
  (`layerKr`, `layerRr`), and in particular a layer of real data is again real data, which feeds the second layer.

  The real identity is distributivity: for each neighbour j the sum over i of
  `(∑ d, (x j d * T (rr i j) d) * Wb e d) + bb e` is `(∑ d, (x j d * ∑ i, T (rr i j) d) * Wb e d) + 128 * bb e`
  (the 128 values of i contribute the bias 128 times), so the sum over neighbours is the sum with the table rows summed
  first plus `deg * 128 * bb e`; dividing by the corrected degree splits over that sum.
-/
import proofs.«406823_j32375463477528_3_alg».proof.Proof.Spec
import Mathlib.Data.EReal.Basic
import Mathlib.Algebra.BigOperators.Ring.Finset
import Mathlib.Tactic.Ring

noncomputable section

open Idealize.ShloMosaic

namespace Cert.Gcn

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The literal 128 of the extended reals is the real 128. -/
theorem coe_128 : (128 : EReal) = ((128 : ℝ) : EReal) := rfl

/-- A 128 × 128 matrix of reals. -/
abbrev MatR := Fin 128 → Fin 128 → ℝ
/-- A length-128 vector of reals. -/
abbrev RowR := Fin 128 → ℝ

/-- The degree of object k over the reals. -/
def degr (a : MatR) (k : Fin 128) : ℝ := ∑ j, a k j

/-- The real degree with 0 replaced by 1. -/
def degcr (a : MatR) (k : Fin 128) : ℝ := if degr a k = 0 then 1 else degr a k

/-- The corrected degree is never zero. -/
theorem degcr_ne_zero (a : MatR) (k : Fin 128) : degcr a k ≠ 0 := by
  unfold degcr
  by_cases h : degr a k = 0
  · rw [if_pos h]; exact one_ne_zero
  · rw [if_neg h]; exact h

/-- The degree of real adjacencies is the real degree. -/
theorem deg_coe (a : MatR) (k : Fin 128) : deg (fun k j => (a k j : EReal)) k = (degr a k : EReal) := by
  unfold deg degr
  rw [coe_sum]

/-- The corrected degree of real adjacencies is the real corrected degree. -/
theorem degc_coe (a : MatR) (k : Fin 128) : degc (fun k j => (a k j : EReal)) k = (degcr a k : EReal) := by
  unfold degc degcr
  rw [deg_coe]
  by_cases h : degr a k = 0
  · rw [if_pos h, if_pos (by rw [h]; rfl)]; rfl
  · rw [if_neg h, if_neg (by rwa [EReal.coe_eq_zero])]

/-- One layer over the reals, table rows summed first and the bias counted apart. -/
def layerKr (T : Fin 512 → Fin 128 → ℝ) (rr : Fin 128 → Fin 128 → Fin 512) (a x Wa : MatR) (ba : RowR) (Wb : MatR)
    (bb : RowR) : MatR := fun k e =>
  Real.tanh (((((∑ d, x k d * Wa e d) + ba e)
      + (∑ j, a k j * (∑ d, (x j d * ∑ i, T (rr i j) d) * Wb e d)) * (1 / degcr a k))
      + ((degr a k * (1 / degcr a k)) * 128) * bb e)
      + x k e)

/-- One layer over the reals, messages summed pair by pair. -/
def layerRr (T : Fin 512 → Fin 128 → ℝ) (rr : Fin 128 → Fin 128 → Fin 512) (a x Wa : MatR) (ba : RowR) (Wb : MatR)
    (bb : RowR) : MatR := fun k e =>
  Real.tanh ((((∑ d, x k d * Wa e d) + ba e)
      + (∑ j, a k j * (∑ i, ((∑ d, (x j d * T (rr i j) d) * Wb e d) + bb e))) * (1 / degcr a k))
      + x k e)

/-- The first arrangement of a layer on real data is the inclusion of the real layer. -/
theorem layerK_coe (T : Fin 512 → Fin 128 → ℝ) (rr : Fin 128 → Fin 128 → Fin 512) (a x Wa : MatR) (ba : RowR)
    (Wb : MatR) (bb : RowR) :
    layerK (fun p d => (T p d : EReal)) rr (fun k j => (a k j : EReal)) (fun k d => (x k d : EReal))
        (fun e d => (Wa e d : EReal)) (fun e => (ba e : EReal)) (fun e d => (Wb e d : EReal)) (fun e => (bb e : EReal))
      = fun k e => (layerKr T rr a x Wa ba Wb bb k e : EReal) := by
  funext k e
  unfold layerK layerKr
  rw [deg_coe, degc_coe, Ideal.div_coe (degcr_ne_zero a k), Ideal.div_coe (degcr_ne_zero a k), coe_128]
  simp only [relsum, ← coe_sum, ← EReal.coe_mul, ← EReal.coe_add]
  rfl

/-- The second arrangement of a layer on real data is the inclusion of the real layer. -/
theorem layerR_coe (T : Fin 512 → Fin 128 → ℝ) (rr : Fin 128 → Fin 128 → Fin 512) (a x Wa : MatR) (ba : RowR)
    (Wb : MatR) (bb : RowR) :
    layerR (fun p d => (T p d : EReal)) rr (fun k j => (a k j : EReal)) (fun k d => (x k d : EReal))
        (fun e d => (Wa e d : EReal)) (fun e => (ba e : EReal)) (fun e d => (Wb e d : EReal)) (fun e => (bb e : EReal))
      = fun k e => (layerRr T rr a x Wa ba Wb bb k e : EReal) := by
  funext k e
  unfold layerR layerRr
  rw [degc_coe, Ideal.div_coe (degcr_ne_zero a k)]
  simp only [← coe_sum, ← EReal.coe_mul, ← EReal.coe_add]
  rfl

/-- For one neighbour j: the messages of column j summed over i, with the table rows summed first; the bias is
    counted once for each of the 128 values of i. -/
theorem sum_messages (T : Fin 512 → Fin 128 → ℝ) (rr : Fin 128 → Fin 128 → Fin 512) (x Wb : MatR) (bb : RowR)
    (j e : Fin 128) :
    ∑ i, ((∑ d, (x j d * T (rr i j) d) * Wb e d) + bb e)
      = (∑ d, (x j d * ∑ i, T (rr i j) d) * Wb e d) + 128 * bb e := by
  rw [Finset.sum_add_distrib, Finset.sum_const, Finset.card_univ, Fintype.card_fin, nsmul_eq_mul, Finset.sum_comm]
  congr 1
  · apply Finset.sum_congr rfl
    intro d _
    rw [Finset.mul_sum, Finset.sum_mul]

/-- The sum over neighbours: pair by pair, or table rows first plus the degree times 128 times the bias. -/
theorem sum_neighbours (T : Fin 512 → Fin 128 → ℝ) (rr : Fin 128 → Fin 128 → Fin 512) (a x Wb : MatR) (bb : RowR)
    (k e : Fin 128) :
    ∑ j, a k j * (∑ i, ((∑ d, (x j d * T (rr i j) d) * Wb e d) + bb e))
      = (∑ j, a k j * (∑ d, (x j d * ∑ i, T (rr i j) d) * Wb e d)) + degr a k * 128 * bb e := by
  unfold degr
  rw [Finset.sum_mul, Finset.sum_mul, ← Finset.sum_add_distrib]
  apply Finset.sum_congr rfl
  intro j _
  rw [sum_messages]
  ring

/-- The two arrangements of a real layer agree. -/
theorem layerKr_eq_layerRr (T : Fin 512 → Fin 128 → ℝ) (rr : Fin 128 → Fin 128 → Fin 512) (a x Wa : MatR) (ba : RowR)
    (Wb : MatR) (bb : RowR) : layerKr T rr a x Wa ba Wb bb = layerRr T rr a x Wa ba Wb bb := by
  funext k e
  unfold layerKr layerRr
  rw [sum_neighbours]
  congr 1
  ring

/-- The two arrangements of the two-layer computation agree on real data with adjacencies 0 or 1. -/
theorem twoK_eq_twoR (T : Fin 512 → Fin 128 → EReal) (rr : Fin 128 → Fin 128 → Fin 512) (aa x0 W0 : Mat) (b0 : Row)
    (W1 : Mat) (b1 : Row) (W2 : Mat) (b2 : Row) (W3 : Mat) (b3 : Row)
    (hT : ∀ a d, ∃ r : ℝ, T a d = (r : EReal)) (hx0 : ∀ j d, ∃ r : ℝ, x0 j d = (r : EReal))
    (hW0 : ∀ e d, ∃ r : ℝ, W0 e d = (r : EReal)) (hb0 : ∀ e, ∃ r : ℝ, b0 e = (r : EReal))
    (hW1 : ∀ e d, ∃ r : ℝ, W1 e d = (r : EReal)) (hb1 : ∀ e, ∃ r : ℝ, b1 e = (r : EReal))
    (hW2 : ∀ e d, ∃ r : ℝ, W2 e d = (r : EReal)) (hb2 : ∀ e, ∃ r : ℝ, b2 e = (r : EReal))
    (hW3 : ∀ e d, ∃ r : ℝ, W3 e d = (r : EReal)) (hb3 : ∀ e, ∃ r : ℝ, b3 e = (r : EReal))
    (haa : ∀ k j, aa k j = 0 ∨ aa k j = 1) :
    twoK T rr aa x0 W0 b0 W1 b1 W2 b2 W3 b3 = twoR T rr aa x0 W0 b0 W1 b1 W2 b2 W3 b3 := by
  have haa' : ∀ k j, ∃ r : ℝ, aa k j = (r : EReal) := by
    intro k j
    rcases haa k j with h | h
    · exact ⟨0, by rw [h]; rfl⟩
    · exact ⟨1, by rw [h]; rfl⟩
  choose Tr hTr using hT
  choose xr hxr using hx0
  choose ar har using haa'
  choose W0r hW0r using hW0
  choose b0r hb0r using hb0
  choose W1r hW1r using hW1
  choose b1r hb1r using hb1
  choose W2r hW2r using hW2
  choose b2r hb2r using hb2
  choose W3r hW3r using hW3
  choose b3r hb3r using hb3
  have eT : T = fun p d => (Tr p d : EReal) := funext fun p => funext fun d => hTr p d
  have ex : x0 = fun k d => (xr k d : EReal) := funext fun k => funext fun d => hxr k d
  have ea : aa = fun k j => (ar k j : EReal) := funext fun k => funext fun j => har k j
  have eW0 : W0 = fun e d => (W0r e d : EReal) := funext fun e => funext fun d => hW0r e d
  have eb0 : b0 = fun e => (b0r e : EReal) := funext fun e => hb0r e
  have eW1 : W1 = fun e d => (W1r e d : EReal) := funext fun e => funext fun d => hW1r e d
  have eb1 : b1 = fun e => (b1r e : EReal) := funext fun e => hb1r e
  have eW2 : W2 = fun e d => (W2r e d : EReal) := funext fun e => funext fun d => hW2r e d
  have eb2 : b2 = fun e => (b2r e : EReal) := funext fun e => hb2r e
  have eW3 : W3 = fun e d => (W3r e d : EReal) := funext fun e => funext fun d => hW3r e d
  have eb3 : b3 = fun e => (b3r e : EReal) := funext fun e => hb3r e
  unfold twoK twoR
  rw [eT, ex, ea, eW0, eb0, eW1, eb1, eW2, eb2, eW3, eb3]
  rw [layerK_coe Tr rr ar xr W0r b0r W1r b1r, layerR_coe Tr rr ar xr W0r b0r W1r b1r,
    layerK_coe Tr rr ar (layerKr Tr rr ar xr W0r b0r W1r b1r) W2r b2r W3r b3r,
    layerR_coe Tr rr ar (layerRr Tr rr ar xr W0r b0r W1r b1r) W2r b2r W3r b3r,
    layerKr_eq_layerRr, layerKr_eq_layerRr]

end Cert.Gcn

end
-- ==== Proof.Bridge.lean ====
/-
  The two arrangements meet. Under the precondition every relation word is in [0, 512): clamping it changes nothing, and
  raising a negative word by 512 before a clamped table read never happens, so both programs read table row w for word w
  and mark the same pairs adjacent. With every float entry finite the two arrangements of the two layers agree
  (Algebra.lean), hence so do the result arrays, index by index.
-/
import proofs.«406823_j32375463477528_3_alg».proof.Proof.Spec
import proofs.«406823_j32375463477528_3_alg».proof.Proof.KHost
import proofs.«406823_j32375463477528_3_alg».proof.Proof.Algebra
import Idealize.ShloMosaic.Lib.ValueIdx

noncomputable section

namespace Cert.Gcn

open Idealize.ShloMosaic Idealize.ShloMosaic.ValueIdx

/-- A word in [0, 512) as a natural number is its signed value. -/
theorem toNat_of_range (w : BitVec 32) (h0 : 0 ≤ w.toInt) (h1 : w.toInt < 512) : (w.toNat : Int) = w.toInt ∧ w.toNat < 512 := by
  have h3 := BitVec.toInt_eq_toNat_cond w
  split at h3 <;> omega

/-- For a word in [0, 512) the wrapped-then-clamped table row is the word itself. -/
theorem rowR_of_range (w : BitVec 32) (h0 : 0 ≤ w.toInt) (h1 : w.toInt < 512) : rowR w = rowOf w := by
  obtain ⟨e, hlt⟩ := toNat_of_range w h0 h1
  unfold rowR rowOf
  apply Fin.ext
  have hn : ¬ w.toInt < 0 := by omega
  simp only [hn, if_false]
  show min w.toInt.toNat 511 = w.toNat % 512
  omega

/-- The arrays' entries, finite and in range, give equal result arrays in the two arrangements. -/
theorem bridge (a0 : (⟨3, ![16, 128, 2048]⟩ : Shape).Idx → EReal) (a1 : (⟨3, ![16, 128, 128]⟩ : Shape).Idx → BitVec 32)
    (a2 : (⟨2, ![2000, 128]⟩ : Shape).Idx → EReal) (a3 : (⟨2, ![512, 128]⟩ : Shape).Idx → EReal)
    (a4 : (⟨2, ![128, 128]⟩ : Shape).Idx → EReal) (a5 : (⟨1, ![128]⟩ : Shape).Idx → EReal)
    (a6 : (⟨2, ![128, 128]⟩ : Shape).Idx → EReal) (a7 : (⟨1, ![128]⟩ : Shape).Idx → EReal)
    (a8 : (⟨2, ![128, 128]⟩ : Shape).Idx → EReal) (a9 : (⟨1, ![128]⟩ : Shape).Idx → EReal)
    (a10 : (⟨2, ![128, 128]⟩ : Shape).Idx → EReal) (a11 : (⟨1, ![128]⟩ : Shape).Idx → EReal)
    (h0 : ∀ i, ∃ r : ℝ, a0 i = (r : EReal)) (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal)) (h6 : ∀ i, ∃ r : ℝ, a6 i = (r : EReal))
    (h7 : ∀ i, ∃ r : ℝ, a7 i = (r : EReal)) (h8 : ∀ i, ∃ r : ℝ, a8 i = (r : EReal)) (h9 : ∀ i, ∃ r : ℝ, a9 i = (r : EReal))
    (h10 : ∀ i, ∃ r : ℝ, a10 i = (r : EReal)) (h11 : ∀ i, ∃ r : ℝ, a11 i = (r : EReal))
    (hr : ∀ i, 0 ≤ (a1 i).toInt ∧ (a1 i).toInt < 512) (b : Fin 16) :
    twoK (fun a d => a3 (ix2 a d)) (fun i j => rowOf (clipW (a1 (ix3 b i j)))) (fun k j => adjOf (clipW (a1 (ix3 b k j))))
        (fun j d => a2 (ix2 (⟨j.val, by have := j.isLt; omega⟩ : Fin 2000) d))
        (fun e d => a4 (ix2 e d)) (fun e => a5 (ix1 e)) (fun e d => a6 (ix2 e d)) (fun e => a7 (ix1 e))
        (fun e d => a8 (ix2 e d)) (fun e => a9 (ix1 e)) (fun e d => a10 (ix2 e d)) (fun e => a11 (ix1 e))
      = twoR (fun a d => a3 (ix2 a d)) (fun i j => rowR (a1 (ix3 b i j))) (fun k j => adjOf (a1 (ix3 b k j)))
        (fun j d => a2 (ix2 (⟨j.val, by have := j.isLt; omega⟩ : Fin 2000) d))
        (fun e d => a4 (ix2 e d)) (fun e => a5 (ix1 e)) (fun e d => a6 (ix2 e d)) (fun e => a7 (ix1 e))
        (fun e d => a8 (ix2 e d)) (fun e => a9 (ix1 e)) (fun e d => a10 (ix2 e d)) (fun e => a11 (ix1 e)) := by
  have e1 : (fun i j : Fin 128 => rowOf (clipW (a1 (ix3 b i j)))) = fun i j => rowR (a1 (ix3 b i j)) := by
    funext i j
    rw [clipW_of_range _ (hr _).1 (hr _).2, rowR_of_range _ (hr _).1 (hr _).2]
  have e2 : (fun k j : Fin 128 => adjOf (clipW (a1 (ix3 b k j)))) = fun k j => adjOf (a1 (ix3 b k j)) := by
    funext k j
    rw [clipW_of_range _ (hr _).1 (hr _).2]
  rw [e1, e2]
  refine twoK_eq_twoR _ _ _ _ _ _ _ _ _ _ _ _ (fun a d => h3 _) (fun j d => h2 _) (fun e d => h4 _) (fun e => h5 _)
    (fun e d => h6 _) (fun e => h7 _) (fun e d => h8 _) (fun e => h9 _) (fun e d => h10 _) (fun e => h11 _) (fun k j => ?_)
  unfold adjOf
  split
  · exact Or.inr rfl
  · exact Or.inl rfl

end Cert.Gcn

end
-- ==== Proof.lean ====
/-
  The certificate's claim: the three programs run to the end under the precondition with their arguments unchanged, the
  idealized kernel is the kernel's sanctioned idealization (nothing was rewritten, so there is nothing to show), and the
  idealized kernel and the idealized reference end with the same result array on the extended reals.

  The precondition asks every float input to be finite and every relation word to be in [0, 512), the range of the
  table the reference indexes with it. The result array of batch member b holds, in columns 0 … 127, the state after two
  message-passing layers and after them the member's features. The kernel sums the table rows of a column of the
  relation matrix first (through a histogram over the word's high and low digits) and accounts for the bias of the 128
  messages apart; the reference sums message by message. On finite data the two are one function (Algebra.lean), and the
  words in range name the same table rows on both sides (Bridge.lean).
-/
import proofs.«406823_j32375463477528_3_alg».proof.Defs
import proofs.«406823_j32375463477528_3_alg».proof.Proof.Gen.Kernel
import proofs.«406823_j32375463477528_3_alg».proof.Proof.Gen.Kernel.Skeleton
import proofs.«406823_j32375463477528_3_alg».proof.Proof.Gen.Kernel.Launch
import proofs.«406823_j32375463477528_3_alg».proof.Proof.Gen.Kernel.Points
import proofs.«406823_j32375463477528_3_alg».proof.Proof.Gen.Kernel.Frame
import proofs.«406823_j32375463477528_3_alg».proof.Proof.Gen.KernelIdeal
import proofs.«406823_j32375463477528_3_alg».proof.Proof.Gen.KernelIdeal.Skeleton
import proofs.«406823_j32375463477528_3_alg».proof.Proof.Gen.KernelIdeal.Launch
import proofs.«406823_j32375463477528_3_alg».proof.Proof.Gen.KernelIdeal.Points
import proofs.«406823_j32375463477528_3_alg».proof.Proof.Gen.KernelIdeal.Frame
import proofs.«406823_j32375463477528_3_alg».proof.Proof.Gen.ReferenceIdeal
import proofs.«406823_j32375463477528_3_alg».proof.Proof.Gen.Pre_finite_inputs
import proofs.«406823_j32375463477528_3_alg».proof.Proof.Gen.KernelIdeal.Value
import proofs.«406823_j32375463477528_3_alg».proof.Proof.RefRun
import proofs.«406823_j32375463477528_3_alg».proof.Proof.RefRead
import proofs.«406823_j32375463477528_3_alg».proof.Proof.KFinal
import proofs.«406823_j32375463477528_3_alg».proof.Proof.RefValue
import proofs.«406823_j32375463477528_3_alg».proof.Proof.PreFacts
import proofs.«406823_j32375463477528_3_alg».proof.Proof.Bridge
import Idealize.ShloMosaic.Adequacy
import Idealize.ShloMosaic.Init

noncomputable section

namespace Cert.Proof

open Idealize.ShloMosaic Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end at the result function of the arguments: the kernel's in its arrangement (KFinal.lean), the reference's
    in its own (RefValue.lean); under the precondition they are one function (Bridge.lean). -/
theorem algebraic : Cert.algebraic_KernelIdeal_ReferenceIdeal := by
  intro m ρ m' ρ' hpre hagree
  refine ⟨fun c => Cert.Gcn.Gk m c, Cert.Gcn.run m ρ, ?_⟩
  refine (θ_run Cert.ReferenceIdeal.defs _ _).mono (fun r h c => ⟨(h c).1.trans ?_, (h c).2⟩)
    (Cert.ReferenceIdeal.ValueP.run (F := Ideal) m' ρ')
  obtain ⟨g0, g1, g2, g3, g4, g5, g6, g7, g8, g9, g10, g11⟩ := hagree c
  obtain ⟨h0, h2, h3, h4, h5, h6, h7, h8, h9, h10, h11, hr⟩ := Cert.Gcn.pre_facts _ _ _ _ _ _ _ _ _ _ _ _ (hpre c)
  rw [Cert.ReferenceIdeal.ReadP.val_main_v54_eq, g0, g1, g2, g3, g4, g5, g6, g7, g8, g9, g10, g11]
  funext y
  rw [Cert.Gcn.ref_value]
  unfold Cert.Gcn.Gk Cert.Gcn.stateOf
  exact congrArg (fun two => Cert.Gcn.result two _ (y 0) (y 1) (y 2))
    (funext fun b => (Cert.Gcn.bridge _ _ _ _ _ _ _ _ _ _ _ _ h0 h2 h3 h4 h5 h6 h7 h8 h9 h10 h11 hr b).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
